-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x512x16 : Shape := ⟨4, ![2, 512, 512, 16]⟩
abbrev S272x256 : Shape := ⟨2, ![272, 256]⟩
abbrev S256 : Shape := ⟨1, ![256]⟩
abbrev S256x256 : Shape := ⟨2, ![256, 256]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x512x16 : S_.BroadcastsInDim S2x512x512x16 (![] : Fin 0 → Fin S2x512x512x16.rank)
  reducesTo_S2x512x512x16_S_d0_1_2_3 : S2x512x512x16.ReducesTo [0, 1, 2, 3] S_
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg6 : FVec F S256 .f32) (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_cst_22 : FVec F S_ .f32 := constant S_ .f32 0x00000000#32
  let main_v59 : FVec F S256 .f32 := broadcastInDim S256 ![] bcast_S_S256 main_cst_22
  let main_v60 : IVec S256 1 := cmpf .oge main_arg6 main_v59
  let main_c_23 : IVec S_ 1 := constantI S_ 1 1#1
  let main_v61 : IVec S_ 1 := (fun x v => Host.reduce IntOp.andi x v reducesTo_S256_S_d0 h_S_) main_v60 main_c_23
  let main_v62 : IVec S_ 1 := andi main_v58 main_v61
  let main_cst_24 : FVec F S_ .f32 := constant S_ .f32 0x00000000#32
  let main_v63 : FVec F S256 .f32 := broadcastInDim S256 ![] bcast_S_S256 main_cst_24
  let main_v64 : IVec S256 1 := cmpf .oge main_arg11 main_v63
  let main_c_25 : IVec S_ 1 := constantI S_ 1 1#1
  let main_v65 : IVec S_ 1 := (fun x v => Host.reduce IntOp.andi x v reducesTo_S256_S_d0 h_S_) main_v64 main_c_25
  let main_v66 : IVec S_ 1 := andi main_v62 main_v65
  main_v66

def fn_part2 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg6 main_arg11 main_v48 main_v49 main_v50

def fn_part1 {F : FTy → Type} [FloatOps F] (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg6 main_arg7 main_arg8 main_arg9 main_arg10 main_arg11 main_v33

def fn {F : FTy → Type} [FloatOps F] (main_arg0 : FVec F S2x512x128 .f32) (main_arg1 : FVec F S2x512x512x16 .f32) (main_arg2 : FVec F S272x256 .f32) (main_arg3 : FVec F S256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x512x16 .f32 := Host.absf main_arg1
  let main_cst_0 : FVec F S_ .f32 := constant S_ .f32 0x7F800000#32
  let main_v5 : FVec F S2x512x512x16 .f32 := broadcastInDim S2x512x512x16 ![] bcast_S_S2x512x512x16 main_cst_0
  let main_v6 : IVec S2x512x512x16 1 := cmpf .olt main_v4 main_v5
  let main_c_1 : IVec S_ 1 := constantI S_ 1 1#1
  let main_v7 : IVec S_ 1 := (fun x v => Host.reduce IntOp.andi x v reducesTo_S2x512x512x16_S_d0_1_2_3 h_S_) main_v6 main_c_1
  let main_v8 : IVec S_ 1 := andi main_v3 main_v7
  let main_v9 : FVec F S272x256 .f32 := Host.absf main_arg2
  let main_cst_2 : FVec F S_ .f32 := constant S_ .f32 0x7F800000#32
  let main_v10 : FVec F S272x256 .f32 := broadcastInDim S272x256 ![] bcast_S_S272x256 main_cst_2
  let main_v11 : IVec S272x256 1 := cmpf .olt main_v9 main_v10
  let main_c_3 : IVec S_ 1 := constantI S_ 1 1#1
  let main_v12 : IVec S_ 1 := (fun x v => Host.reduce IntOp.andi x v reducesTo_S272x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S2x512x128 : Shape := ⟨3, ![2, 512, 128]⟩
abbrev S2x512x512x16 : Shape := ⟨4, ![2, 512, 512, 16]⟩
abbrev S272x256 : Shape := ⟨2, ![272, 256]⟩
abbrev S256 : Shape := ⟨1, ![256]⟩
abbrev S256x256 : Shape := ⟨2, ![256, 256]⟩
abbrev S_ : Shape := ⟨0, ![]⟩
abbrev S1x256 : Shape := ⟨2, ![1, 256]⟩
abbrev S128x256 : Shape := ⟨2, ![128, 256]⟩
abbrev S16x256 : Shape := ⟨2, ![16, 256]⟩
abbrev S2x512x8192 : Shape := ⟨3, ![2, 512, 8192]⟩
abbrev S2x512x256 : Shape := ⟨3, ![2, 512, 256]⟩
abbrev S1x128x128 : Shape := ⟨3, ![1, 128, 128]⟩
abbrev S1x64x128 : Shape := ⟨3, ![1, 64, 128]⟩
abbrev S1x128x1024 : Shape := ⟨3, ![1, 128, 1024]⟩
abbrev S1x128x256 : Shape := ⟨3, ![1, 128, 256]⟩
abbrev S128x128 : Shape := ⟨2, ![128, 128]⟩
abbrev S64x128 : Shape := ⟨2, ![64, 128]⟩
abbrev S64x256 : Shape := ⟨2, ![64, 256]⟩
abbrev S128x1024 : Shape := ⟨2, ![128, 1024]⟩
abbrev S128x64x16 : Shape := ⟨3, ![128, 64, 16]⟩
abbrev S8192x16 : Shape := ⟨2, ![8192, 16]⟩
abbrev S8192x256 : Shape := ⟨2, ![8192, 256]⟩
abbrev S128x64x256 : Shape := ⟨3, ![128, 64, 256]⟩
abbrev S128x1x256 : Shape := ⟨3, ![128, 1, 256]⟩
abbrev S1x64x256 : Shape := ⟨3, ![1, 64, 256]⟩
abbrev S1x1x256 : Shape := ⟨3, ![1, 1, 256]⟩

abbrev nBuf : Space → Nat
  | .hbm => 45
  | .vmem => 15
  | .smem => 0
  | _ => 0

abbrev bufTy : (tb : Table) → Fin (tcTables nBuf tb) → BufTy
  | .hbm, ⟨0, _⟩ => ⟨S2x512x128, .f32⟩
  | .hbm, ⟨1, _⟩ => ⟨S2x512x512x16, .f32⟩
  | .hbm, ⟨2, _⟩ => ⟨S272x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S1x256, .f32⟩
  | .hbm, ⟨20, _⟩ => ⟨S128x256, .f32⟩
  | .hbm, ⟨21, _⟩ => ⟨S1x256, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S1x256, .f32⟩
  | .hbm, ⟨26, _⟩ => ⟨S128x256, .f32⟩
  | .hbm, ⟨27, _⟩ => ⟨S128x256, .f32⟩
  | .hbm, ⟨28, _⟩ => ⟨S16x256, .f32⟩
  | .hbm, ⟨29, _⟩ => ⟨S1x256, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S1x256, .f32⟩
  | .hbm, ⟨41, _⟩ => ⟨S256x256, .f32⟩
  | .hbm, ⟨42, _⟩ => ⟨S256x256, .f32⟩
  | .hbm, ⟨43, _⟩ => ⟨S2x512x8192, .f32⟩
  | .hbm, ⟨44, _⟩ => ⟨S2x512x256, .f32⟩
  | .local _ .vmem, ⟨0, _⟩ => ⟨S1x128x128, .f32⟩
  | .local _ .vmem, ⟨1, _⟩ => ⟨S1x128x128, .f32⟩
  | .local _ .vmem, ⟨2, _⟩ => ⟨S1x64x128, .f32⟩
  | .local _ .vmem, ⟨3, _⟩ => ⟨S1x64x128, .f32⟩
  | .local _ .vmem, ⟨4, _⟩ => ⟨S1x128x1024, .f32⟩
  | .local _ .vmem, ⟨5, _⟩ => ⟨S1x128x1024, .f32⟩
  | .local _ .vmem, ⟨6, _⟩ => ⟨S128x256, .f32⟩
  | .local _ .vmem, ⟨7, _⟩ => ⟨S128x256, .f32⟩
  | .local _ .vmem, ⟨8, _⟩ => ⟨S16x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x128x256, .f32⟩
  | .local _ .vmem, ⟨13, _⟩ => ⟨S1x128x256, .f32⟩
  | .local _ .vmem, ⟨14, _⟩ => ⟨S128x256, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v60 : BitVec 1 := Scalar.cmpi .eq arg2 c7_i32
  let v61 : BitVec 32 := Scalar.extui v60
  let c0_i32_30 : BitVec 32 := 0#32
  let v62 : BitVec 1 := Scalar.cmpi .ne v61 c0_i32_30
  v62

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

class Facts₀ : Prop where
  bcast_S_S256 : S_.BroadcastsInDim S256 (![] : Fin 0 → Fin S256.rank)
  shapeCasts_S256_S1x256 : S256.ShapeCasts S1x256
  slices_S272x256_S128x256_0_0 : S272x256.Slices ![0, 0] S128x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  slices_S272x256_S128x256_128_0 : S272x256.Slices ![128, 0] S128x256
  slices_S272x256_S16x256_256_0 : S272x256.Slices ![256, 0] S16x256
  bcast_S1x256_S16x256_0_1 : S1x256.BroadcastsInDim S16x256 (![0, 1] : Fin 2 → Fin S16x256.rank)
  bcast_S1x256_S256x256_0_1 : S1x256.BroadcastsInDim S256x256 (![0, 1] : Fin 2 → Fin S256x256.rank)
  shapeCasts_S2x512x512x16_S2x512x8192 : S2x512x512x16.ShapeCasts S2x512x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S128x64x16 : S128x1024.ShapeCasts S128x64x16
  shapeCasts_S128x64x16_S8192x16 : S128x64x16.ShapeCasts S8192x16
  shapeCasts_S8192x256_S128x64x256 : S8192x256.ShapeCasts S128x64x256
  shapeCasts_S128x256_S128x1x256 : S128x256.ShapeCasts S128x1x256
  broadcasts_S128x1x256_S128x64x256 : S128x1x256.Broadcasts S128x64x256
  shapeCasts_S64x256_S1x64x256 : S64x256.ShapeCasts S1x64x256
  broadcasts_S1x64x256_S128x64x256 : S1x64x256.Broadcasts S128x64x256
  shapeCasts_S128x64x256_S8192x256 : S128x64x256.ShapeCasts S8192x256
  shapeCasts_S1x256_S1x1x256 : S1x256.ShapeCasts S1x1x256
  broadcasts_S1x1x256_S128x64x256 : S1x1x256.Broadcasts S128x64x256
  reduces_S128x64x256_S128x256 : S128x64x256.Reduces [1] S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  dot_S128x128_S128x256_S128x256_1_0_0_1_n_n_wf : DotDims.WF S128x128 S128x256 S128x256 [1] [0] [0] [1] [] []
  dot_S64x128_S128x256_S64x256_1_0_0_1_n_n_wf : DotDims.WF S64x128 S128x256 S64x256 [1] [0] [0] [1] [] []
  dot_S8192x16_S16x256_S8192x256_1_0_0_1_n_n_wf : DotDims.WF S8192x16 S16x256 S8192x256 [1] [0] [0] [1] [] []
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S2x512x128.size a
  hwx0_0 : ∀ i : grid0.Coords, EltTy.bits .f32 = 32 ∨ (Rect.block (s := S2x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S2x512x128.size a
  hwx0_1 : ∀ i : grid0.Coords, EltTy.bits .f32 = 32 ∨ (Rect.block (s := S2x512x128) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S2x512x8192.size a
  hwx0_2 : ∀ i : grid0.Coords, EltTy.bits .f32 = 32 ∨ (Rect.block (s := S2x512x8192) S1x128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x256.size a
  hwx0_5 : ∀ i : grid0.Coords, EltTy.bits .f32 = 32 ∨ (Rect.block (s := S16x256) S16x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x256.size a ≤ S2x512x256.size a
  hwx0_9 : ∀ i : grid0.Coords, EltTy.bits .f32 = 32 ∨ (Rect.block (s := S2x512x256) S1x128x256.size (cc0_transform_9 i) (hinb0_9 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S8192x16_S16x256_S8192x256_1_0_0_1_n_n : DotDims S8192x16 S16x256 S8192x256 where
  lhsContracting := [1]
  rhsContracting := [0]
  lhsNonContracting := [0]
  rhsNonContracting := [1]
  lhsBatch := []
  rhsBatch := []
  wf := dot_S8192x16_S16x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S16x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S1x128x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2x512x128 : Shape := ⟨3, ![2, 512, 128]⟩
abbrev S2x512x512x16 : Shape := ⟨4, ![2, 512, 512, 16]⟩
abbrev S272x256 : Shape := ⟨2, ![272, 256]⟩
abbrev S256 : Shape := ⟨1, ![256]⟩
abbrev S256x256 : Shape := ⟨2, ![256, 256]⟩
abbrev S2x512x1x128 : Shape := ⟨4, ![2, 512, 1, 128]⟩
abbrev S2x512x512x128 : Shape := ⟨4, ![2, 512, 512, 128]⟩
abbrev S2x1x512x128 : Shape := ⟨4, ![2, 1, 512, 128]⟩
abbrev S2x512x512x272 : Shape := ⟨4, ![2, 512, 512, 272]⟩
abbrev S2x512x512x256 : Shape := ⟨4, ![2, 512, 512, 256]⟩
abbrev S1x1x1x256 : Shape := ⟨4, ![1, 1, 1, 256]⟩
abbrev S_ : Shape := ⟨0, ![]⟩
abbrev S2x512x256 : Shape := ⟨3, ![2, 512, 256]⟩

abbrev nBuf : Space → Nat
  | .hbm => 53
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x512x16, .f32⟩
  | .hbm, ⟨2, _⟩ => ⟨S272x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2x512x1x128, .f32⟩
  | .hbm, ⟨13, _⟩ => ⟨S2x512x512x128, .f32⟩
  | .hbm, ⟨14, _⟩ => ⟨S2x1x512x128, .f32⟩
  | .hbm, ⟨15, _⟩ => ⟨S2x512x512x128, .f32⟩
  | .hbm, ⟨16, _⟩ => ⟨S2x512x512x272, .f32⟩
  | .hbm, ⟨17, _⟩ => ⟨S2x512x512x256, .f32⟩
  | .hbm, ⟨18, _⟩ => ⟨S1x1x1x256, .f32⟩
  | .hbm, ⟨19, _⟩ => ⟨S2x512x512x256, .f32⟩
  | .hbm, ⟨20, _⟩ => ⟨S2x512x512x256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S1x1x1x256, .f32⟩
  | .hbm, ⟨27, _⟩ => ⟨S2x512x512x256, .f32⟩
  | .hbm, ⟨28, _⟩ => ⟨S2x512x512x256, .f32⟩
  | .hbm, ⟨29, _⟩ => ⟨S1x1x1x256, .f32⟩
  | .hbm, ⟨30, _⟩ => ⟨S2x512x512x256, .f32⟩
  | .hbm, ⟨31, _⟩ => ⟨S2x512x512x256, .f32⟩
  | .hbm, ⟨32, _⟩ => ⟨S_, .f32⟩
  | .hbm, ⟨33, _⟩ => ⟨S2x512x512x256, .f32⟩
  | .hbm, ⟨34, _⟩ => ⟨S2x512x512x256, .f32⟩
  | .hbm, ⟨35, _⟩ => ⟨S2x512x512x256, .f32⟩
  | .hbm, ⟨36, _⟩ => ⟨S1x1x1x256, .f32⟩
  | .hbm, ⟨37, _⟩ => ⟨S2x512x512x256, .f32⟩
  | .hbm, ⟨38, _⟩ => ⟨S2x512x512x256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S1x1x1x256, .f32⟩
  | .hbm, ⟨45, _⟩ => ⟨S2x512x512x256, .f32⟩
  | .hbm, ⟨46, _⟩ => ⟨S2x512x512x256, .f32⟩
  | .hbm, ⟨47, _⟩ => ⟨S1x1x1x256, .f32⟩
  | .hbm, ⟨48, _⟩ => ⟨S2x512x512x256, .f32⟩
  | .hbm, ⟨49, _⟩ => ⟨S2x512x512x256, .f32⟩
  | .hbm, ⟨50, _⟩ => ⟨S2x512x512x256, .f32⟩
  | .hbm, ⟨51, _⟩ => ⟨S_, .f32⟩
  | .hbm, ⟨52, _⟩ => ⟨S2x512x256, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S2x512x128_S2x512x1x128_0_1_3 : S2x512x128.BroadcastsInDim S2x512x1x128 (![0, 1, 3] : Fin 3 → Fin S2x512x1x128.rank)
  bcast_S2x512x1x128_S2x512x512x128_0_1_2_3 : S2x512x1x128.BroadcastsInDim S2x512x512x128 (![0, 1, 2, 3] : Fin 4 → Fin S2x512x512x128.rank)
  bcast_S2x512x128_S2x1x512x128_0_2_3 : S2x512x128.BroadcastsInDim S2x1x512x128 (![0, 2, 3] : Fin 3 → Fin S2x1x512x128.rank)
  bcast_S2x1x512x128_S2x512x512x128_0_1_2_3 : S2x1x512x128.BroadcastsInDim S2x512x512x128 (![0, 1, 2, 3] : Fin 4 → Fin S2x512x512x128.rank)
  concatenates_S2x512x512x128_S2x512x512x128_S2x512x512x16_S2x512x512x272_d3 : Shape.Concatenates [S2x512x512x128, S2x512x512x128, S2x512x512x16] S2x512x512x272 3
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S256 : S_.BroadcastsInDim S256 (![] : Fin 0 → Fin S256.rank)
  bcast_S_S2x512x512x256 : S_.BroadcastsInDim S2x512x512x256 (![] : Fin 0 → Fin S2x512x512x256.rank)
  reducesTo_S2x512x512x256_S2x512x256_d2 : S2x512x512x256.ReducesTo [2] S2x512x256
  h_S_ : 0 < S_.numel
  dot_S2x512x512x272_S272x256_S2x512x512x256_3_0_012_1_n_n_wf : DotDims.WF S2x512x512x272 S272x256 S2x512x512x256 [3] [0] [0, 1, 2] [1] [] []
  dot_S2x512x512x256_S256x256_S2x512x512x256_3_0_012_1_n_n_wf : DotDims.WF S2x512x512x256 S256x256 S2x512x512x256 [3] [0] [0, 1, 2] [1] [] []

variable [Facts₀]

def dot_S2x512x512x272_S272x256_S2x512x512x256_3_0_012_1_n_n : DotDims S2x512x512x272 S272x256 S2x512x512x256 where
  lhsContracting := [3]
  rhsContracting := [0]
  lhsNonContracting := [0, 1, 2]
  rhsNonContracting := [1]
  lhsBatch := []
  rhsBatch := []
  wf := dot_S2x512x512x272_S272x256_S2x512x512x256_3_0_012_1_n_n_wf
def dot_S2x512x512x256_S256x256_S2x512x512x256_3_0_012_1_n_n : DotDims S2x512x512x256 S256x256 S2x512x512x256 where
  lhsContracting := [3]
  rhsContracting := [0]
  lhsNonContracting := [0, 1, 2]
  rhsNonContracting := [1]
  lhsBatch := []
  rhsBatch := []
  wf := dot_S2x512x512x256_S256x256_S2x512x512x256_3_0_012_1_n_n_wf

class Facts : Prop extends Facts₀ where

variable [Facts]
-- ==== Proof.K.Kit.lean ====
import proofs.«400706_j54133767798955_3_alg».proof.Proof.Gen.Kernel.Launch
import proofs.«400706_j54133767798955_3_alg».proof.Proof.Gen.Kernel.Skeleton
import proofs.«400706_j54133767798955_3_alg».proof.Proof.Gen.Kernel.Points
import Idealize.ShloMosaic.Lib.Pipeline.FrameBody
import Idealize.ShloMosaic.Lib.Ring
import Idealize.ShloMosaic.Lib.Tactic

/-!
# The region's surroundings and schedule

What every later module about the kernel's run is stated over. The program is 32 host operations
(the two normalisations folded into the weight columns, the adjacency tensor's last two axes merged) and
then ONE region on a 2 × 4 × 8 grid (batch, row block of 128, column block of 64; 64 points, the column block
innermost). Ten windows: the node features twice (row block; column block) — both on the SAME array —, the
merged adjacency block, four weight matrices and two shift rows held whole, and the result's row block.
A scratch of the row block's shape is carried from point to point: cleared when the column block is 0,
added to at every point, copied to the result's buffer when the column block is 7.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the 32 host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is
    not fetched its block index has not moved since the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is
    not fetched its block index has not moved since the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- The scratch is cleared: the column block is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The scratch is copied to the result's buffer: the column block is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result's window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Where the copy is not taken the body stores nothing into the result's buffer, and the pipeline does not write it back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- Where the copy is taken the window is live. -/
theorem liveAt0_9 : ∀ t : Fin cfg0.N, cond0_1 (grid0.coords t) → cfg0.idle 9 (grid0.coords t) = false := by decide +kernel

/-! ## The staging and scratch memrefs the body is called with -/

/-- One staging buffer of the result's window, through which its contents are stated. -/
abbrev VO0_9 : View sig .tc .vmem S1x128x256 .f32 := (Memref.whole cc0_stg9_0 : Memref sig .tc .vmem S1x128x256 .f32).view
abbrev ms0_0 (t : Fin cfg0.N) : Memref sig .tc .vmem S1x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x256 .f32 := win0_9.stage (cfg0.slots t 9)
abbrev hs0_9 (t : Fin cfg0.N) : (ms0_9 t).IsWhole := hstage0_9 ((cfg0.slots t 9).cast nbuf0_9)
/-- The scratch: a whole buffer of the kernel's own, passed beside the windows. -/
abbrev scM0_0 : Memref sig .tc .vmem S128x256 .f32 := Memref.whole cc0_scratch0
/-- The scratch as a view: what it holds is stated through it. -/
abbrev VS0_0 : View sig .tc .vmem S128x256 .f32 := scM0_0.view

/-- The region's own invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
import proofs.«400706_j54133767798955_3_alg».proof.Proof.K.Kit

/-! The kernel body's run in one control case (see the module of the region's surroundings for the cases). -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The sum is cleared first (column block 0): on whole memrefs — the nine inputs at their contents `x·`, the result's
    buffer at contents `xi9` handed back untouched, the carried sum at ANY contents — the body runs to the
    continuation holding the inputs as they were, the result's buffer as it was, and the carried sum with its pieces
    `LS0` written (the clearing store, then the point's sum added). The pieces are what the run finds. -/
noncomputable def kernelRun0_A (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) :
    Σ' (L9 : List (View.Piece (Elt F) S1x128x256 .f32)), { LS0 : List (View.Piece (Elt F) S128x256 .f32) //
      ∀ (xi9 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨[], ?_, fun xi9 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact HS0

end Cert.Kernel.Hand

end
-- ==== Proof.K.RunB.lean ====
import proofs.«400706_j54133767798955_3_alg».proof.Proof.K.RunA

/-! The kernel body's run in one control case (see the module of the region's surroundings for the cases). -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Neither branch taken (column blocks 1 to 6): on whole memrefs — the nine inputs at their contents `x·`, the
    result's buffer at contents `xi9` handed back untouched, the carried sum at what the point before left (`xs0`) —
    the body runs to the continuation holding the inputs as they were, the result's buffer as it was, and the
    carried sum with its pieces `LS0` written. The pieces are what the run finds. -/
noncomputable def kernelRun0_B (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) :
    Σ' (L9 : List (View.Piece (Elt F) S1x128x256 .f32)), { LS0 : List (View.Piece (Elt F) S128x256 .f32) //
      ∀ (xi9 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨[], ?_, fun xi9 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact HS0

end Cert.Kernel.Hand

end
-- ==== Proof.K.RunC.lean ====
import proofs.«400706_j54133767798955_3_alg».proof.Proof.K.RunB

/-! The kernel body's run in one control case (see the module of the region's surroundings for the cases). -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The sum is copied out last (column block 7): on whole memrefs — the nine inputs at their contents `x·`, the
    result's buffer at ANY contents, the carried sum at what the point before left (`xs0`) — the body runs to the
    continuation holding the inputs as they were, the result's buffer with its pieces `L9` written (the copy of
    the finished sum) and the carried sum with its pieces `LS0` written. The pieces are what the run finds. -/
noncomputable def kernelRun0_C (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) :
    Σ' (L9 : List (View.Piece (Elt F) S1x128x256 .f32)), { LS0 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact HS0

end Cert.Kernel.Hand

end
-- ==== Proof.K.Shares.lean ====
import proofs.«400706_j54133767798955_3_alg».proof.Proof.K.Kit

/-! The shares at which the ten windows hold their arrays. -/

namespace Cert.Kernel.Hand

open Idealize.ShloMosaic Idealize.SL Idealize.SL.RA Idealize.SL.BI Idealize.SL.Sem

/-- The node features' buffer is read through two windows, half a share each; every other window holds its array whole. -/
def qShare : Fin 10 → PosShare TreeShare
  | ⟨0, _⟩ => fullShare.left
  | ⟨1, _⟩ => fullShare.right
  | _ => fullShare

end Cert.Kernel.Hand
-- ==== Proof.K.Frame.lean ====
import proofs.«400706_j54133767798955_3_alg».proof.Proof.K.RunC
import proofs.«400706_j54133767798955_3_alg».proof.Proof.K.Shares

/-!
# What the carried sum and the result's buffer hold, point by point, and the body's obligation

From the three runs of the body: what each leaves in the carried sum and in the result's buffer (`sout0_·_0`,
`out0_·_9`); by recursion on the point, what they hold after each point (`outsAt0`); the region's invariant with
the carried sum at those contents (`PhiS`); the pipeline's proof data (`dats`); and the obligation the
pipeline asks of the body at every point (`body_obligation`).
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What this case leaves in the result's buffer: its pieces read back (none: the buffer is not stored into; a placeholder nothing consults). -/
def out0_A_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) : Vec F S1x128x256 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

/-- The body's stores into the carried sum cover it. -/
theorem scover0_A_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (y : S128x256.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S128x256.size (by sl_kernel_rfl) y

/-- What this case leaves in the carried sum: its pieces read back. -/
def sout0_A_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) : Vec F S128x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

/-- What this case leaves in the result's buffer: its pieces read back (none: the buffer is not stored into; a placeholder nothing consults). -/
def out0_B_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S1x128x256 .f32 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

/-- The body's stores into the carried sum cover it. -/
theorem scover0_B_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) (y : S128x256.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 S128x256.size (by sl_kernel_rfl) y

/-- What this case leaves in the carried sum: its pieces read back. -/
def sout0_B_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S128x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

/-- In this case the body's one store into the result's buffer covers it. -/
theorem cover0_C_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) (y : S1x128x256.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 S1x128x256.size (by sl_kernel_rfl) y

/-- What this case leaves in the result's buffer: its pieces read back. -/
def out0_C_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S1x128x256 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

/-- The body's stores into the carried sum cover it. -/
theorem scover0_C_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) (y : S128x256.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 S128x256.size (by sl_kernel_rfl) y

/-- What this case leaves in the carried sum: its pieces read back. -/
def sout0_C_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S128x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

/-! ## What the buffers hold after each point -/

/-- After the body at position `n`: the result's buffer and the carried sum (in that order). The case is the one the
    closed forms select at `n` (column block 0 / 7 / between); cases B and C take the carried sum the point before left. -/
def outsAt0 (c : Dev nD) : (n : ℕ) → n < cfg0.N → Vec F S1x128x256 .f32 × Vec F S128x256 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 8 = 0 then
      if h1 : (n + 1) % 8 = 7 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 8 = 7 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The kernel's one scoped buffer that is no staging buffer is the scratch: held whole at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

/-- The region's invariant before position `n`: before the first point the scratch at anything; afterwards the
    carried sum at what the point before left. (The body draws no random bits: the generator register is no part of it.) -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The arrays as the region finds them; after the body each input's buffer at its block and the result's at
    `outsAt0`; the invariant `PhiS`; nothing owed; the node features' buffer shared half and half by its two readers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem q_eq (c : Dev nD) : (dats m 0 c).q = qShare := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' buffers hold their blocks; the closed forms say which case the point is in;
    the invariant hands the body the carried sum at what the point before left (at anything at the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [Dat.leavesExact_idle (dats m 0 c) 9 t (idleAt0_9 t hc1) (noFlush0_9 t hc1)]
    rw [outsAt0_A m c t h0 h1]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      iintro ⟨H0, H1, H2, H3, H4, H5, H6, H7, H8, H9, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t hc1], after0_9]
      rw [outsAt0_C m c t h0 h1]
      unfold out0_C_9 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_C_9 c _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9 t hc1) (noFlush0_9 t hc1)]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back, its contents forgotten. -/
theorem Phi_out (c : Dev nD) (t : Fin (cfg0.N + 1)) (ht : t.val ≠ 0) : (dats m 0 c).Φ t ⊢ (Pipeline.scopedRest spec0 c : sProp 𝕄) := by
  rw [show (dats m 0 c).Φ t = PhiS m c t.val (Nat.le_of_lt_succ t.isLt) from rfl, PhiS_pos m c _ _ ht, scopedRest0_owns]
  iintro HS0
  iexists _; iexact HS0

theorem hout (c : Dev nD) : (dats m 0 c).Φ (Fin.last cfg0.N) ⊢ (Pipeline.scopedRest spec0 c : sProp 𝕄) :=
  Phi_out m c _ (by rw [Fin.val_last]; have : cfg0.N = 64 := N_0; omega)

end Cert.Kernel.Hand

end
-- ==== Proof.K.Split.lean ====
import proofs.«400706_j54133767798955_3_alg».proof.Proof.K.Kit
import proofs.«400706_j54133767798955_3_alg».proof.Proof.K.Shares

/-!
# One array behind two windows

The node features are handed to the region twice: window 0 reads a row block of them, window 1 a column block.
The launch holds each DISTINCT buffer behind the windows' arrays whole; the pipeline wants one holding per WINDOW.
The buffer of the node features is therefore divided between windows 0 and 1, half a share each (both only read it);
every other buffer goes whole to its one window.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The distinct buffers behind the ten windows' arrays, conjoined one by one: nine, the node features' buffer once. -/
theorem bigSep_arrBufs0 {M : Type} [URA M] (Φ : Ref sig .tc → sProp M) :
    bigSep (Finset.univ.image (Pipeline.arrRef spec0)) Φ
      = iprop(Φ main_arg0 ∗ Φ main_v29 ∗ Φ main_v10 ∗ Φ main_v14 ∗ Φ main_v18 ∗ Φ main_v28 ∗ Φ main_v6 ∗ Φ main_v25 ∗ Φ main_v30) :=
  bigSep_eq_bigSepL_of_eq [main_arg0, main_v29, main_v10, main_v14, main_v18, main_v28, main_v6, main_v25, main_v30] (by decide) (by decide) Φ

/-- The distinct buffers behind the arrays, each whole at its region-entry contents, make the ten windows' holdings
    at entry, for any proof data with those shares whose entry arrays are the region-entry contents. -/
theorem arrays_of_arrBufs {c : Dev nD} (dat : Dat τ (Elt F) Unit ℕ (UR sig nD τ) ℕ cfg0 c)
    (hq : dat.q = qShare) (hA : ∀ w, dat.A w = V m c (Pipeline.arrRef spec0 w)) :
    (Pipeline.arrBufs spec0 c (V m c) : sProp 𝕄) ⊢ dat.arrays (dat.arrAt · 0) := by
  -- a window's holding of its array — a whole buffer — is the buffer's whole points-to, at entry at the region-entry contents
  have hW : ∀ w : Fin 10, (((cfg0.win w).arr.view.loc (c : Thread nD τ)) ↦[(cfg0.win w).arr.view.set]{dat.share w} dat.arrAt w 0 : sProp 𝕄)
      = (((c : Thread nD τ).loc (Pipeline.arrRef spec0 w)) ↦{dat.share w} V m c (Pipeline.arrRef spec0 w)) := fun w => by
    rw [(arr_whole0 w).set_eq_univ]
    show (_ ↦{dat.share w} dat.A w) = _
    rw [hA w]
  -- the shares: the two readers of the node features a half each, every other window the full share (the result's as an output)
  have h0 : dat.share 0 = fullShare.left := by unfold Dat.share; rw [hq]; rfl
  have h1 : dat.share 1 = fullShare.right := by unfold Dat.share; rw [hq]; rfl
  have hr : ∀ w : Fin 10, w ≠ 0 → w ≠ 1 → dat.share w = fullShare := fun w => by
    unfold Dat.share; rw [hq]; revert w; decide
  unfold Pipeline.arrBufs Dat.arrays
  rw [bigSep_congr (fun w _ => hW w), bigSep_W0, bigSep_arrBufs0,
    h0, h1, hr 2 (by decide) (by decide), hr 3 (by decide) (by decide), hr 4 (by decide) (by decide), hr 5 (by decide) (by decide),
    hr 6 (by decide) (by decide), hr 7 (by decide) (by decide), hr 8 (by decide) (by decide), hr 9 (by decide) (by decide)]
  -- nine whole buffers on the left, ten holdings on the right: the node features' buffer is divided along its share, the rest pass as they are
  iintro ⟨H0, H2, H3, H4, H5, H6, H7, H8, H9⟩
  icases (pointsTo_share (PosShare.mem_left_op_right fullShare)).1 $$ H0 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Hand

end
-- ==== Proof.K.Launch.lean ====
import proofs.«400706_j54133767798955_3_alg».proof.Proof.K.Frame
import proofs.«400706_j54133767798955_3_alg».proof.Proof.K.Split
import Idealize.ShloMosaic.Lib.Pipeline.Launch
import Idealize.ShloMosaic.Lib.Pipeline.Frame

/-!
# The run

The region is launched with its windows sharing an array: the buffers behind the arrays are dealt to the windows
(the node features' buffer half and half to its two readers), the scratch reaches the body through the invariant,
every other buffer bypasses the region. The run terminates, faults nowhere, leaves every bypassing buffer and every
input array as it was, and leaves the result's array at what the library computes from the proof data.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates; every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := fun c => arrays_of_arrBufs m (dats m 0 c) (q_eq m c) (A_eq m c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run with the result's array named and the twelve arguments read back: the node features are an input array
    of the pipeline (either of its two windows says so), the other eleven bypass the region, and no host operation
    writes an argument. -/
theorem run_named : θ_run defs (onTc (τ := τ) (main (F := F))) ⟨m, fun _ => 0, ρ⟩ (fun r => ∀ c : Dev nD,
      r.2.mem ((c.tc : Thread nD τ).loc main_v30) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 9, ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

/-- The frame: the run terminates, faults nowhere and leaves the twelve arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_named m ρ)

end Cert.Kernel.Hand

end
-- ==== Proof.KI.Kit.lean ====
import proofs.«400706_j54133767798955_3_alg».proof.Proof.Gen.KernelIdeal.Launch
import proofs.«400706_j54133767798955_3_alg».proof.Proof.Gen.KernelIdeal.Skeleton
import proofs.«400706_j54133767798955_3_alg».proof.Proof.Gen.KernelIdeal.Points
import Idealize.ShloMosaic.Lib.Pipeline.FrameBody
import Idealize.ShloMosaic.Lib.Ring
import Idealize.ShloMosaic.Lib.Tactic

/-!
# The region's surroundings and schedule

What every later module about the kernel's run is stated over. The program is 32 host operations
(the two normalisations folded into the weight columns, the adjacency tensor's last two axes merged) and
then ONE region on a 2 × 4 × 8 grid (batch, row block of 128, column block of 64; 64 points, the column block
innermost). Ten windows: the node features twice (row block; column block) — both on the SAME array —, the
merged adjacency block, four weight matrices and two shift rows held whole, and the result's row block.
A scratch of the row block's shape is carried from point to point: cleared when the column block is 0,
added to at every point, copied to the result's buffer when the column block is 7.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the 32 host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is
    not fetched its block index has not moved since the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is
    not fetched its block index has not moved since the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- The scratch is cleared: the column block is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The scratch is copied to the result's buffer: the column block is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result's window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Where the copy is not taken the body stores nothing into the result's buffer, and the pipeline does not write it back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- Where the copy is taken the window is live. -/
theorem liveAt0_9 : ∀ t : Fin cfg0.N, cond0_1 (grid0.coords t) → cfg0.idle 9 (grid0.coords t) = false := by decide +kernel

/-! ## The staging and scratch memrefs the body is called with -/

/-- One staging buffer of the result's window, through which its contents are stated. -/
abbrev VO0_9 : View sig .tc .vmem S1x128x256 .f32 := (Memref.whole cc0_stg9_0 : Memref sig .tc .vmem S1x128x256 .f32).view
abbrev ms0_0 (t : Fin cfg0.N) : Memref sig .tc .vmem S1x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x256 .f32 := win0_9.stage (cfg0.slots t 9)
abbrev hs0_9 (t : Fin cfg0.N) : (ms0_9 t).IsWhole := hstage0_9 ((cfg0.slots t 9).cast nbuf0_9)
/-- The scratch: a whole buffer of the kernel's own, passed beside the windows. -/
abbrev scM0_0 : Memref sig .tc .vmem S128x256 .f32 := Memref.whole cc0_scratch0
/-- The scratch as a view: what it holds is stated through it. -/
abbrev VS0_0 : View sig .tc .vmem S128x256 .f32 := scM0_0.view

/-- The region's own invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
import proofs.«400706_j54133767798955_3_alg».proof.Proof.KI.Kit

/-! The kernel body's run in one control case (see the module of the region's surroundings for the cases). -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The sum is cleared first (column block 0): on whole memrefs — the nine inputs at their contents `x·`, the result's
    buffer at contents `xi9` handed back untouched, the carried sum at ANY contents — the body runs to the
    continuation holding the inputs as they were, the result's buffer as it was, and the carried sum with its pieces
    `LS0` written (the clearing store, then the point's sum added). The pieces are what the run finds. -/
noncomputable def kernelRun0_A (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) :
    Σ' (L9 : List (View.Piece (Elt F) S1x128x256 .f32)), { LS0 : List (View.Piece (Elt F) S128x256 .f32) //
      ∀ (xi9 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨[], ?_, fun xi9 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact HS0

end Cert.KernelIdeal.Hand

end
-- ==== Proof.KI.RunB.lean ====
import proofs.«400706_j54133767798955_3_alg».proof.Proof.KI.RunA

/-! The kernel body's run in one control case (see the module of the region's surroundings for the cases). -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Neither branch taken (column blocks 1 to 6): on whole memrefs — the nine inputs at their contents `x·`, the
    result's buffer at contents `xi9` handed back untouched, the carried sum at what the point before left (`xs0`) —
    the body runs to the continuation holding the inputs as they were, the result's buffer as it was, and the
    carried sum with its pieces `LS0` written. The pieces are what the run finds. -/
noncomputable def kernelRun0_B (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) :
    Σ' (L9 : List (View.Piece (Elt F) S1x128x256 .f32)), { LS0 : List (View.Piece (Elt F) S128x256 .f32) //
      ∀ (xi9 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨[], ?_, fun xi9 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact HS0

end Cert.KernelIdeal.Hand

end
-- ==== Proof.KI.RunC.lean ====
import proofs.«400706_j54133767798955_3_alg».proof.Proof.KI.RunB

/-! The kernel body's run in one control case (see the module of the region's surroundings for the cases). -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The sum is copied out last (column block 7): on whole memrefs — the nine inputs at their contents `x·`, the
    result's buffer at ANY contents, the carried sum at what the point before left (`xs0`) — the body runs to the
    continuation holding the inputs as they were, the result's buffer with its pieces `L9` written (the copy of
    the finished sum) and the carried sum with its pieces `LS0` written. The pieces are what the run finds. -/
noncomputable def kernelRun0_C (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) :
    Σ' (L9 : List (View.Piece (Elt F) S1x128x256 .f32)), { LS0 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact HS0

end Cert.KernelIdeal.Hand

end
-- ==== Proof.KI.Shares.lean ====
import proofs.«400706_j54133767798955_3_alg».proof.Proof.KI.Kit

/-! The shares at which the ten windows hold their arrays. -/

namespace Cert.KernelIdeal.Hand

open Idealize.ShloMosaic Idealize.SL Idealize.SL.RA Idealize.SL.BI Idealize.SL.Sem

/-- The node features' buffer is read through two windows, half a share each; every other window holds its array whole. -/
def qShare : Fin 10 → PosShare TreeShare
  | ⟨0, _⟩ => fullShare.left
  | ⟨1, _⟩ => fullShare.right
  | _ => fullShare

end Cert.KernelIdeal.Hand
-- ==== Proof.KI.Frame.lean ====
import proofs.«400706_j54133767798955_3_alg».proof.Proof.KI.RunC
import proofs.«400706_j54133767798955_3_alg».proof.Proof.KI.Shares

/-!
# What the carried sum and the result's buffer hold, point by point, and the body's obligation

From the three runs of the body: what each leaves in the carried sum and in the result's buffer (`sout0_·_0`,
`out0_·_9`); by recursion on the point, what they hold after each point (`outsAt0`); the region's invariant with
the carried sum at those contents (`PhiS`); the pipeline's proof data (`dats`); and the obligation the
pipeline asks of the body at every point (`body_obligation`).
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What this case leaves in the result's buffer: its pieces read back (none: the buffer is not stored into; a placeholder nothing consults). -/
def out0_A_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) : Vec F S1x128x256 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

/-- The body's stores into the carried sum cover it. -/
theorem scover0_A_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (y : S128x256.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S128x256.size (by sl_kernel_rfl) y

/-- What this case leaves in the carried sum: its pieces read back. -/
def sout0_A_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) : Vec F S128x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

/-- What this case leaves in the result's buffer: its pieces read back (none: the buffer is not stored into; a placeholder nothing consults). -/
def out0_B_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S1x128x256 .f32 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

/-- The body's stores into the carried sum cover it. -/
theorem scover0_B_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) (y : S128x256.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 S128x256.size (by sl_kernel_rfl) y

/-- What this case leaves in the carried sum: its pieces read back. -/
def sout0_B_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S128x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

/-- In this case the body's one store into the result's buffer covers it. -/
theorem cover0_C_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) (y : S1x128x256.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 S1x128x256.size (by sl_kernel_rfl) y

/-- What this case leaves in the result's buffer: its pieces read back. -/
def out0_C_9 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S1x128x256 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

/-- The body's stores into the carried sum cover it. -/
theorem scover0_C_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) (y : S128x256.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 S128x256.size (by sl_kernel_rfl) y

/-- What this case leaves in the carried sum: its pieces read back. -/
def sout0_C_0 (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) : Vec F S128x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

/-! ## What the buffers hold after each point -/

/-- After the body at position `n`: the result's buffer and the carried sum (in that order). The case is the one the
    closed forms select at `n` (column block 0 / 7 / between); cases B and C take the carried sum the point before left. -/
def outsAt0 (c : Dev nD) : (n : ℕ) → n < cfg0.N → Vec F S1x128x256 .f32 × Vec F S128x256 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 8 = 0 then
      if h1 : (n + 1) % 8 = 7 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 8 = 7 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The kernel's one scoped buffer that is no staging buffer is the scratch: held whole at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

/-- The region's invariant before position `n`: before the first point the scratch at anything; afterwards the
    carried sum at what the point before left. (The body draws no random bits: the generator register is no part of it.) -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The arrays as the region finds them; after the body each input's buffer at its block and the result's at
    `outsAt0`; the invariant `PhiS`; nothing owed; the node features' buffer shared half and half by its two readers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem q_eq (c : Dev nD) : (dats m 0 c).q = qShare := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' buffers hold their blocks; the closed forms say which case the point is in;
    the invariant hands the body the carried sum at what the point before left (at anything at the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [Dat.leavesExact_idle (dats m 0 c) 9 t (idleAt0_9 t hc1) (noFlush0_9 t hc1)]
    rw [outsAt0_A m c t h0 h1]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      iintro ⟨H0, H1, H2, H3, H4, H5, H6, H7, H8, H9, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t hc1], after0_9]
      rw [outsAt0_C m c t h0 h1]
      unfold out0_C_9 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_C_9 c _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9 t hc1) (noFlush0_9 t hc1)]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back, its contents forgotten. -/
theorem Phi_out (c : Dev nD) (t : Fin (cfg0.N + 1)) (ht : t.val ≠ 0) : (dats m 0 c).Φ t ⊢ (Pipeline.scopedRest spec0 c : sProp 𝕄) := by
  rw [show (dats m 0 c).Φ t = PhiS m c t.val (Nat.le_of_lt_succ t.isLt) from rfl, PhiS_pos m c _ _ ht, scopedRest0_owns]
  iintro HS0
  iexists _; iexact HS0

theorem hout (c : Dev nD) : (dats m 0 c).Φ (Fin.last cfg0.N) ⊢ (Pipeline.scopedRest spec0 c : sProp 𝕄) :=
  Phi_out m c _ (by rw [Fin.val_last]; have : cfg0.N = 64 := N_0; omega)

end Cert.KernelIdeal.Hand

end
-- ==== Proof.KI.Pieces.lean ====
import proofs.«400706_j54133767798955_3_alg».proof.Proof.KI.Frame
import Idealize.ShloMosaic.Lib.Pipeline.Value

/-!
# What each case leaves, as the body's arithmetic

The pieces the three runs found, read back, are the body's stored values: the carried sum ends at the value the body
stores into it (over the cleared sum in the first case, over what the point before left in the others), and in the
last case the result's buffer ends at the copy of that value.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a rank-two buffer, as the constant function. -/
theorem hz2 : (![0, 0] : Fin 2 → Nat) = fun _ => 0 := funext fun a => by fin_cases a <;> rfl

/-- The zero offsets of a rank-three buffer, as the constant function. -/
theorem hz3 : (![0, 0, 0] : Fin 3 → Nat) = fun _ => 0 := funext fun a => by fin_cases a <;> rfl

/-- Column block 0: the carried sum ends at the point's sum added to the cleared sum. -/
theorem sout0_A_0_eq (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay1 (k0_pay4 x5) (k0_pay5 x6) (k0_pay6 x0 x3 x7) (k0_pay7 x1 x4) (k0_pay8 x2) x8 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S128x256) hz2, View.readCov_unit_zero (S := S128x256) _ hz2]
  simp only [View.readAt_eq_ld, harg3.read_unread, harg4.read_unread, harg5.read_unread, harg6.read_unread, harg7.read_unread, harg8.read_unread, harg9.read_unread, harg10.read_unread, harg11.read_unread, harg13.read_unread,
    View.ld_unit_zero (S := S1x128x128) hz3, View.ld_unit_zero (S := S1x64x128) hz3, View.ld_unit_zero (S := S1x128x1024) hz3, View.ld_unit_zero (S := S128x256) hz2, View.ld_unit_zero (S := S16x256) hz2, View.ld_unit_zero (S := S256x256) hz2, View.ld_unit_zero (S := S1x256) hz2]

/-- Column blocks 1 to 6: the carried sum ends at the point's sum added to what the point before left. -/
theorem sout0_B_0_eq (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : ¬cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay1 (k0_pay4 x5) (k0_pay5 x6) (k0_pay6 x0 x3 x7) (k0_pay7 x1 x4) (k0_pay8 x2) x8 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B
  dsimp only
  sl_unfold_words
  rw [View.canon_unit_zero (S := S128x256) hz2]
  simp only [View.readAt_eq_ld, harg3.read_unread, harg4.read_unread, harg5.read_unread, harg6.read_unread, harg7.read_unread, harg8.read_unread, harg9.read_unread, harg10.read_unread, harg11.read_unread, harg13.read_unread,
    View.ld_unit_zero (S := S1x128x128) hz3, View.ld_unit_zero (S := S1x64x128) hz3, View.ld_unit_zero (S := S1x128x1024) hz3, View.ld_unit_zero (S := S128x256) hz2, View.ld_unit_zero (S := S16x256) hz2, View.ld_unit_zero (S := S256x256) hz2, View.ld_unit_zero (S := S1x256) hz2]

/-- Column block 7: the same for the carried sum, -/
theorem sout0_C_0_eq (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay1 (k0_pay4 x5) (k0_pay5 x6) (k0_pay6 x0 x3 x7) (k0_pay7 x1 x4) (k0_pay8 x2) x8 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero (S := S128x256) hz2]
  simp only [View.readAt_eq_ld, harg3.read_unread, harg4.read_unread, harg5.read_unread, harg6.read_unread, harg7.read_unread, harg8.read_unread, harg9.read_unread, harg10.read_unread, harg11.read_unread, harg13.read_unread,
    View.ld_unit_zero (S := S1x128x128) hz3, View.ld_unit_zero (S := S1x64x128) hz3, View.ld_unit_zero (S := S1x128x1024) hz3, View.ld_unit_zero (S := S128x256) hz2, View.ld_unit_zero (S := S16x256) hz2, View.ld_unit_zero (S := S256x256) hz2, View.ld_unit_zero (S := S1x256) hz2]

/-- and the result's buffer ends at the copy of the finished sum. -/
theorem out0_C_9_eq (c : Dev nD) (i : grid0.Coords) (arg3 : Memref sig .tc .vmem S1x128x128 .f32) (harg3 : arg3.IsWhole) (arg4 : Memref sig .tc .vmem S1x64x128 .f32) (harg4 : arg4.IsWhole) (arg5 : Memref sig .tc .vmem S1x128x1024 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S16x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128x256 .f32) (harg12 : arg12.IsWhole) (arg13 : Memref sig .tc .vmem S128x256 .f32) (harg13 : arg13.IsWhole) (hc0 : ¬cond0_0 i) (hc1 : cond0_1 i)
    (x0 : Vec F S1x128x128 .f32) (x1 : Vec F S1x64x128 .f32) (x2 : Vec F S1x128x1024 .f32) (x3 : Vec F S128x256 .f32) (x4 : Vec F S128x256 .f32) (x5 : Vec F S16x256 .f32) (x6 : Vec F S256x256 .f32) (x7 : Vec F S1x256 .f32) (x8 : Vec F S1x256 .f32) (xs0 : Vec F S128x256 .f32) :
    out0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 (k0_pay1 (k0_pay4 x5) (k0_pay5 x6) (k0_pay6 x0 x3 x7) (k0_pay7 x1 x4) (k0_pay8 x2) x8 xs0) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero (S := S1x128x256) hz3, View.readCov_unit_zero (S := S128x256) _ hz2]
  simp only [View.readAt_eq_ld, harg3.read_unread, harg4.read_unread, harg5.read_unread, harg6.read_unread, harg7.read_unread, harg8.read_unread, harg9.read_unread, harg10.read_unread, harg11.read_unread, harg13.read_unread,
    View.ld_unit_zero (S := S1x128x128) hz3, View.ld_unit_zero (S := S1x64x128) hz3, View.ld_unit_zero (S := S1x128x1024) hz3, View.ld_unit_zero (S := S128x256) hz2, View.ld_unit_zero (S := S16x256) hz2, View.ld_unit_zero (S := S256x256) hz2, View.ld_unit_zero (S := S1x256) hz2]

end Cert.KernelIdeal.Hand

end
-- ==== Proof.BlockStep.lean ====
import proofs.«400706_j54133767798955_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-! What one grid point adds to the carried sum, entry by entry, over the blocks the body loads. -/

noncomputable section

namespace Cert.KernelIdeal.BlockStep

open Idealize.ShloMosaic Cert.KernelIdeal Cert.KernelIdeal.Gen ValueIdx

/-! ## A plain matrix product read at an index -/

section Plain
variable {m k n : ℕ}

/-- The dimension numbers of a plain matrix product: rows by the shared axis, the shared axis by columns. -/
abbrev plainDims (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

variable (wf : DotDims.WF ⟨2, ![m, k]⟩ ⟨2, ![k, n]⟩ ⟨2, ![m, n]⟩ [1] [0] [0] [1] [] [])

/-- The left operand's row is the result's row. -/
theorem plain_lhs_0 (i : (⟨2, ![m, n]⟩ : Shape).Idx) (q : (plainDims wf).contr.Idx) :
    ((plainDims wf).lhsIdx i q 0).val = (i 0).val := by
  unfold DotDims.lhsIdx
  rw [dif_neg (show ¬(0 : Fin 2) ∈ (plainDims wf).lhsBatch from List.not_mem_nil),
    dif_pos (show (0 : Fin 2) ∈ (plainDims wf).lhsNonContracting from List.mem_singleton.2 rfl)]
  rfl

/-- The left operand's column is the shared index. -/
theorem plain_lhs_1 (i : (⟨2, ![m, n]⟩ : Shape).Idx) (q : (plainDims wf).contr.Idx) :
    ((plainDims wf).lhsIdx i q 1).val = (q ⟨0, Nat.one_pos⟩).val :=
  (plainDims wf).lhsIdx_val_of_single rfl i q

/-- The right operand's row is the shared index. -/
theorem plain_rhs_0 (i : (⟨2, ![m, n]⟩ : Shape).Idx) (q : (plainDims wf).contr.Idx) :
    ((plainDims wf).rhsIdx i q 0).val = (q ⟨0, Nat.one_pos⟩).val :=
  (plainDims wf).rhsIdx_val_of_single rfl i q

/-- The right operand's column is the result's column. -/
theorem plain_rhs_1 (i : (⟨2, ![m, n]⟩ : Shape).Idx) (q : (plainDims wf).contr.Idx) :
    ((plainDims wf).rhsIdx i q 1).val = (i 1).val := by
  unfold DotDims.rhsIdx
  rw [dif_neg (show ¬(1 : Fin 2) ∈ (plainDims wf).rhsBatch from List.not_mem_nil),
    dif_pos (show (1 : Fin 2) ∈ (plainDims wf).rhsNonContracting from List.mem_singleton.2 rfl)]
  rfl

/-- A plain matrix product into a zero accumulator, read at row p and column q: the sum over the shared axis. -/
theorem matmul_plain_apply {φ₁ φ₂ : FTy} (lhs : FVec Ideal ⟨2, ![m, k]⟩ φ₁) (rhs : FVec Ideal ⟨2, ![k, n]⟩ φ₂)
    (p : Fin m) (q : Fin n) :
    matmul (plainDims wf) none lhs rhs (constant (F := Ideal) ⟨2, ![m, n]⟩ .f32 0x00000000#32) (ix2 p q)
      = ∑ c : Fin k, lhs (ix2 p c) * rhs (ix2 c q) := by
  refine (Ideal.matmul_constant_zero_apply (plainDims wf) none lhs rhs (ix2 p q)).trans ?_
  rw [← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_0 wf _ _
      | ⟨1, _⟩ => exact (plain_lhs_1 wf _ _).trans hc)
  have er : (plainDims wf).rhsIdx (ix2 p q) ((contrEquiv1 (plainDims wf) k rfl rfl).symm c) = ix2 c q :=
    funext fun a => Fin.ext (by
      match a with
      | ⟨0, _⟩ => exact (plain_rhs_0 wf _ _).trans hc
      | ⟨1, _⟩ => exact plain_rhs_1 wf _ _)
  rw [el, er]

end Plain

/-! ## The body's layout operations read at an index -/

section Layout
variable {α : Type}

/-- Row r, column jj of the 128 × 64 grid of pairs sits at row r·64 + jj of the flattened 8192. -/
abbrev pairRow (r : Fin 128) (jj : Fin 64) : Fin 8192 := ⟨r.val * 64 + jj.val, by omega⟩

/-- The 128×64×16 block flattened to 8192×16 reads, at row r·64 + jj, the block at (r, jj). -/
theorem flat16_apply (x : S128x64x16.Idx → α) (h : S128x64x16.ShapeCasts S8192x16) (r : Fin 128) (jj : Fin 64) (c : Fin 16) :
    shapeCast S8192x16 x h (ix2 (pairRow r jj) c) = x (ix3 r jj c) :=
  shapeCast_apply x h _ _ (by
    rw [Shape.rowMajor_val_three, Shape.rowMajor_val_two]
    show (r.val * 64 + jj.val) * 16 + c.val = (r.val * 64 + jj.val) * 16 + c.val
    rfl)

/-- The 128×64×256 block flattened to 8192×256 likewise. -/
theorem flat256_apply (x : S128x64x256.Idx → α) (h : S128x64x256.ShapeCasts S8192x256) (r : Fin 128) (jj : Fin 64) (c : Fin 256) :
    shapeCast S8192x256 x h (ix2 (pairRow r jj) c) = x (ix3 r jj c) :=
  shapeCast_apply x h _ _ (by
    rw [Shape.rowMajor_val_three, Shape.rowMajor_val_two]
    show (r.val * 64 + jj.val) * 256 + c.val = (r.val * 64 + jj.val) * 256 + c.val
    rfl)

/-- The 8192×256 array cut back into 128×64×256 reads, at (r, jj), row r·64 + jj. -/
theorem unflat256_apply (x : S8192x256.Idx → α) (h : S8192x256.ShapeCasts S128x64x256) (r : Fin 128) (jj : Fin 64) (c : Fin 256) :
    shapeCast S128x64x256 x h (ix3 r jj c) = x (ix2 (pairRow r jj) c) :=
  shapeCast_apply x h _ _ (by
    rw [Shape.rowMajor_val_three, Shape.rowMajor_val_two]
    show (r.val * 64 + jj.val) * 256 + c.val = (r.val * 64 + jj.val) * 256 + c.val
    rfl)

/-- The 128×1024 adjacency block cut into 64 columns of 16 reads, at (r, jj, c), column jj·16 + c of row r. -/
theorem cut16_apply (x : S128x1024.Idx → α) (h : S128x1024.ShapeCasts S128x64x16) (r : Fin 128) (jj : Fin 64) (c : Fin 16) :
    shapeCast S128x64x16 x h (ix3 r jj c) = x (ix2 r (⟨jj.val * 16 + c.val, by omega⟩ : Fin 1024)) :=
  shapeCast_apply x h _ _ (by
    rw [Shape.rowMajor_val_three, Shape.rowMajor_val_two]
    show r.val * 1024 + (jj.val * 16 + c.val) = (r.val * 64 + jj.val) * 16 + c.val
    omega)

/-- A 128×256 array spread along a new middle axis of 64: every column block reads the row's entry. -/
theorem spreadRows_apply (x : S128x256.Idx → α) (hc : S128x256.ShapeCasts S128x1x256) (hb : S128x1x256.Broadcasts S128x64x256)
    (r : Fin 128) (jj : Fin 64) (c : Fin 256) :
    broadcastTo S128x64x256 (shapeCast S128x1x256 x hc) hb (ix3 r jj c) = x (ix2 r c) := by
  refine (broadcastTo_apply _ hb (ix3 r jj c) (ix3 r (0 : Fin 1) c) fun a => ?_).trans ?_
  · match a with
    | ⟨0, _⟩ => rfl
    | ⟨1, _⟩ => rfl
    | ⟨2, _⟩ => rfl
  · exact shapeCast_apply x hc _ _ (by
      rw [Shape.rowMajor_val_three, Shape.rowMajor_val_two]
      show r.val * 256 + c.val = (r.val * 1 + 0) * 256 + c.val
      omega)

/-- A 64×256 array spread along a new leading axis of 128: every row reads the column block's entry. -/
theorem spreadCols_apply (x : S64x256.Idx → α) (hc : S64x256.ShapeCasts S1x64x256) (hb : S1x64x256.Broadcasts S128x64x256)
    (r : Fin 128) (jj : Fin 64) (c : Fin 256) :
    broadcastTo S128x64x256 (shapeCast S1x64x256 x hc) hb (ix3 r jj c) = x (ix2 jj c) := by
  refine (broadcastTo_apply _ hb (ix3 r jj c) (ix3 (0 : Fin 1) jj c) fun a => ?_).trans ?_
  · match a with
    | ⟨0, _⟩ => rfl
    | ⟨1, _⟩ => rfl
    | ⟨2, _⟩ => rfl
  · exact shapeCast_ab_1ab_apply x hc 0 jj c

/-- A 1×256 row spread over both leading axes: every (r, jj) reads the row's entry. -/
theorem spreadLane_apply (x : S1x256.Idx → α) (hc : S1x256.ShapeCasts S1x1x256) (hb : S1x1x256.Broadcasts S128x64x256)
    (r : Fin 128) (jj : Fin 64) (c : Fin 256) :
    broadcastTo S128x64x256 (shapeCast S1x1x256 x hc) hb (ix3 r jj c) = x (ix2 (0 : Fin 1) c) := by
  refine (broadcastTo_apply _ hb (ix3 r jj c) (ix3 (0 : Fin 1) (0 : Fin 1) c) fun a => ?_).trans ?_
  · match a with
    | ⟨0, _⟩ => rfl
    | ⟨1, _⟩ => rfl
    | ⟨2, _⟩ => rfl
  · exact shapeCast_ab_1ab_apply x hc 0 0 c

end Layout

/-- The sixteen-bit zero word is zero. -/
theorem ofBits_zero_bf16 : Ideal.ofBits .bf16 0x0000#16 = 0 := by simp [Ideal.ofBits, Ideal.ieee]

/-- The sum over the middle axis of a 128×64×256 array, read at (r, k). -/
theorem laneSum_apply (src : FVec Ideal S128x64x256 .f32) (h : S128x64x256.Reduces [1] S128x256) (hφ : FKind.Formats .f32)
    (hacc : (0x00000000#32 : BitVec 32) = FKind.add.neutral .f32 hφ) (r : Fin 128) (k : Fin 256) :
    multiReduction (F := Ideal) .add [1] S128x256 src 0x00000000#32 h hφ hacc (ix2 r k) = ∑ jj : Fin 64, src (ix3 r jj k) := by
  refine (Ideal.multiReduction_add_single src 0x00000000#32 h hφ hacc (ix2 r k)).trans ?_
  refine Finset.sum_congr rfl fun jj _ => congrArg src (funext fun a => Fin.ext ?_)
  match a with
  | ⟨0, _⟩ => rfl
  | ⟨1, _⟩ => rfl
  | ⟨2, _⟩ => rfl

variable [Cert.KernelIdeal.Facts]

/-- Row r, channel k of one point's contribution: the 64 messages of the point's column block, from the row block
    `xi` (1×128×128), the column block `xj` (1×64×128), the merged adjacency block `ab` (1×128×1024: 64 columns of 16),
    the scaled weights `wl wr` (128×256), `wa` (16×256), `w2` (256×256) and the shift rows `s1 s2` (1×256). -/
def stepSum (xi : S1x128x128.Idx → EReal) (xj : S1x64x128.Idx → EReal) (ab : S1x128x1024.Idx → EReal)
    (wl wr : S128x256.Idx → EReal) (wa : S16x256.Idx → EReal) (w2 : S256x256.Idx → EReal) (s1 s2 : S1x256.Idx → EReal)
    (r : Fin 128) (k : Fin 256) : EReal :=
  ∑ jj : Fin 64, Ideal.tanh ((∑ h : Fin 256,
      max (((∑ c : Fin 16, ab (ix3 (0 : Fin 1) r (⟨jj.val * 16 + c.val, by omega⟩ : Fin 1024)) * wa (ix2 c h))
            + ((∑ c : Fin 128, xi (ix3 (0 : Fin 1) r c) * wl (ix2 c h)) + s1 (ix2 (0 : Fin 1) h)))
           + (∑ c : Fin 128, xj (ix3 (0 : Fin 1) jj c) * wr (ix2 c h))) 0
        * w2 (ix2 h k)) + s2 (ix2 (0 : Fin 1) k))

/-! ## The small payloads -/

/-- The adjacency weights pass through unchanged. -/
theorem pay4_apply (wa : S16x256.Idx → EReal) (i : S16x256.Idx) : k0_pay4 (F := Ideal) wa i = wa i := by
  unfold k0_pay4
  exact congrFun (shapeCast_self wa _) i

/-- The second layer's weights pass through unchanged. -/
theorem pay5_apply (w2 : S256x256.Idx → EReal) (i : S256x256.Idx) : k0_pay5 (F := Ideal) w2 i = w2 i := by
  unfold k0_pay5
  exact congrFun (shapeCast_self w2 _) i

/-- The adjacency block, cut into 64 columns of 16. -/
theorem pay8_apply (ab : S1x128x1024.Idx → EReal) (r : Fin 128) (jj : Fin 64) (c : Fin 16) :
    k0_pay8 (F := Ideal) ab (ix3 r jj c) = ab (ix3 (0 : Fin 1) r (⟨jj.val * 16 + c.val, by omega⟩ : Fin 1024)) := by
  unfold k0_pay8
  refine (cut16_apply _ _ r jj c).trans ?_
  exact shapeCast_1ab_ab_apply ab _ r _

/-- The column block's half of the first layer: the block's rows times the right weights. -/
theorem pay7_apply (xj : S1x64x128.Idx → EReal) (wr : S128x256.Idx → EReal) (jj : Fin 64) (h : Fin 256) :
    k0_pay7 (F := Ideal) xj wr (ix2 jj h) = ∑ c : Fin 128, xj (ix3 (0 : Fin 1) jj c) * wr (ix2 c h) := by
  unfold k0_pay7
  refine (matmul_plain_apply _ _ _ jj h).trans ?_
  refine Finset.sum_congr rfl fun c _ => ?_
  exact congrArg₂ (· * ·) (shapeCast_1ab_ab_apply xj _ jj c) (congrFun (shapeCast_self wr _) _)

/-- The row block's half of the first layer: the block's rows times the left weights, plus the first shift. -/
theorem pay6_apply (xi : S1x128x128.Idx → EReal) (wl : S128x256.Idx → EReal) (s1 : S1x256.Idx → EReal) (r : Fin 128) (h : Fin 256) :
    k0_pay6 (F := Ideal) xi wl s1 (ix2 r h)
      = (∑ c : Fin 128, xi (ix3 (0 : Fin 1) r c) * wl (ix2 c h)) + s1 (ix2 (0 : Fin 1) h) := by
  unfold k0_pay6
  refine congrArg₂ (fun a b : EReal => a + b) ?_ ?_
  · refine (matmul_plain_apply _ _ _ r h).trans ?_
    refine Finset.sum_congr rfl fun c _ => ?_
    exact congrArg₂ (· * ·) (shapeCast_1ab_ab_apply xi _ r c) (congrFun (shapeCast_self wl _) _)
  · refine (broadcastTo_1b_ab_apply _ _ r h).trans ?_
    exact congrFun (shapeCast_self s1 _) _

/-! ## The step's payload -/

/-- The stored value over the body's registers: the carried sum plus, over the 64 column blocks, the hyperbolic tangent of
    the second layer applied to the rectified first layer. -/
theorem pay1_core (v17 : FVec Ideal S16x256 .bf16) (v20 : FVec Ideal S256x256 .bf16) (v26 : FVec Ideal S128x256 .bf16)
    (v28 : FVec Ideal S64x256 .bf16) (v32 : FVec Ideal S128x64x16 .bf16) (v48 : S1x256.Idx → EReal) (v54 : S128x256.Idx → EReal)
    (r : Fin 128) (k : Fin 256) :
    k0_pay1 (F := Ideal) v17 v20 v26 v28 v32 v48 v54 (ix2 r k)
      = v54 (ix2 r k) + ∑ jj : Fin 64, Ideal.tanh ((∑ h : Fin 256,
          max (((∑ c : Fin 16, v32 (ix3 r jj c) * v17 (ix2 c h)) + v26 (ix2 r h)) + v28 (ix2 jj h)) 0 * v20 (ix2 h k))
            + v48 (ix2 (0 : Fin 1) k)) := by
  unfold k0_pay1
  refine (congrFun (shapeCast_self _ _) _).trans ?_
  refine congrArg (fun t : EReal => v54 (ix2 r k) + t) ?_
  refine (laneSum_apply _ _ _ _ r k).trans ?_
  refine Finset.sum_congr rfl fun jj _ => ?_
  refine congrArg Ideal.tanh ?_
  refine congrArg₂ (fun a b : EReal => a + b) ?_ ?_
  · refine (unflat256_apply _ _ r jj k).trans ?_
    refine (matmul_plain_apply _ _ _ (pairRow r jj) k).trans ?_
    refine Finset.sum_congr rfl fun h _ => ?_
    refine congrArg (fun t : EReal => t * v20 (ix2 h k)) ?_
    refine (flat256_apply _ _ r jj h).trans ?_
    refine congrArg₂ (fun a b : EReal => max a b) ?_ ofBits_zero_bf16
    refine congrArg₂ (fun a b : EReal => a + b) (congrArg₂ (fun a b : EReal => a + b) ?_ ?_) ?_
    · refine (unflat256_apply _ _ r jj h).trans ?_
      refine (matmul_plain_apply _ _ _ (pairRow r jj) h).trans ?_
      refine Finset.sum_congr rfl fun c _ => ?_
      exact congrArg (fun t : EReal => t * v17 (ix2 c h)) (flat16_apply _ _ r jj c)
    · exact spreadRows_apply v26 _ _ r jj h
    · exact spreadCols_apply v28 _ _ r jj h
  · refine (spreadLane_apply _ _ _ r jj k).trans ?_
    exact congrFun (shapeCast_self v48 _) _

/-- The value the body stores back into the carried sum: what it held plus the point's contribution. -/
theorem pay1_apply (xi : S1x128x128.Idx → EReal) (xj : S1x64x128.Idx → EReal) (ab : S1x128x1024.Idx → EReal)
    (wl wr : S128x256.Idx → EReal) (wa : S16x256.Idx → EReal) (w2 : S256x256.Idx → EReal) (s1 s2 : S1x256.Idx → EReal)
    (acc : S128x256.Idx → EReal) (r : Fin 128) (k : Fin 256) :
    k0_pay1 (F := Ideal) (k0_pay4 (F := Ideal) wa) (k0_pay5 (F := Ideal) w2) (k0_pay6 (F := Ideal) xi wl s1)
        (k0_pay7 (F := Ideal) xj wr) (k0_pay8 (F := Ideal) ab) s2 acc (ix2 r k)
      = acc (ix2 r k) + stepSum xi xj ab wl wr wa w2 s1 s2 r k := by
  refine (pay1_core _ _ _ _ _ s2 acc r k).trans ?_
  simp only [pay4_apply, pay5_apply, pay6_apply, pay7_apply, pay8_apply]
  rfl

/-- The copy to the result's buffer only adds a leading unit axis. -/
theorem pay2_apply (v : S128x256.Idx → EReal) (r : Fin 128) (k : Fin 256) :
    k0_pay2 (F := Ideal) v (ix3 (0 : Fin 1) r k) = v (ix2 r k) := by
  unfold k0_pay2
  exact shapeCast_ab_1ab_apply v _ 0 r k

/-- The cleared sum is zero everywhere. -/
theorem pay3_apply (r : Fin 128) (k : Fin 256) : k0_pay3 (F := Ideal) (ix2 r k) = 0 := by
  unfold k0_pay3
  refine (congrFun (shapeCast_self _ _) _).trans ?_
  exact Ideal.ofBits_zero_f32

end Cert.KernelIdeal.BlockStep

end
-- ==== Proof.KI.Accum.lean ====
import proofs.«400706_j54133767798955_3_alg».proof.Proof.KI.Pieces
import proofs.«400706_j54133767798955_3_alg».proof.Proof.BlockStep
import Mathlib.Algebra.BigOperators.Group.Finset.Basic

/-!
# The carried sum, point by point

Within one row block the eight points of the column axis add their contributions one after the other into the
carried sum, the first over the cleared sum; at the eighth the finished sum is copied to the result's buffer.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable [Cert.KernelIdeal.Facts]
variable (m : (ℓ : Loc nD τ sig) → Buf (Elt Ideal) ℓ)

/-- The contribution of the point at position `n` (zero past the grid's end), row r, channel k: from the nine input
    blocks the point is handed. -/
def stepN (c : Dev nD) (n : ℕ) (r : Fin 128) (k : Fin 256) : EReal :=
  if hn : n < cfg0.N then
    BlockStep.stepSum (iblk (F := Ideal) m c 0 ⟨n, hn⟩) (iblk (F := Ideal) m c 1 ⟨n, hn⟩) (iblk (F := Ideal) m c 2 ⟨n, hn⟩)
      (iblk (F := Ideal) m c 3 ⟨n, hn⟩) (iblk (F := Ideal) m c 4 ⟨n, hn⟩) (iblk (F := Ideal) m c 5 ⟨n, hn⟩)
      (iblk (F := Ideal) m c 6 ⟨n, hn⟩) (iblk (F := Ideal) m c 7 ⟨n, hn⟩) (iblk (F := Ideal) m c 8 ⟨n, hn⟩) r k
  else 0

/-- The value the body stores at the point `t`, over any carried sum: that sum plus the point's contribution. -/
theorem stored_at (c : Dev nD) (t : Fin cfg0.N) (acc : S128x256.Idx → EReal) (r : Fin 128) (k : Fin 256) :
    k0_pay1 (F := Ideal) (k0_pay4 (F := Ideal) (iblk (F := Ideal) m c 5 t)) (k0_pay5 (F := Ideal) (iblk (F := Ideal) m c 6 t))
        (k0_pay6 (F := Ideal) (iblk (F := Ideal) m c 0 t) (iblk (F := Ideal) m c 3 t) (iblk (F := Ideal) m c 7 t))
        (k0_pay7 (F := Ideal) (iblk (F := Ideal) m c 1 t) (iblk (F := Ideal) m c 4 t)) (k0_pay8 (F := Ideal) (iblk (F := Ideal) m c 2 t))
        (iblk (F := Ideal) m c 8 t) acc (ix2 r k)
      = acc (ix2 r k) + stepN m c t.val r k := by
  refine (BlockStep.pay1_apply (iblk (F := Ideal) m c 0 t) (iblk (F := Ideal) m c 1 t) (iblk (F := Ideal) m c 2 t)
    (iblk (F := Ideal) m c 3 t) (iblk (F := Ideal) m c 4 t) (iblk (F := Ideal) m c 5 t) (iblk (F := Ideal) m c 6 t)
    (iblk (F := Ideal) m c 7 t) (iblk (F := Ideal) m c 8 t) acc r k).trans ?_
  unfold stepN
  rw [dif_pos t.isLt]

/-- The invariant, by induction on the position: the first point of a row block starts from the cleared sum, every
    later one adds to what the point before left. -/
theorem scratch_aux (c : Dev nD) (r : Fin 128) (k : Fin 256) :
    ∀ (n : ℕ) (t : Fin cfg0.N), t.val = n →
      (outsAt0 (F := Ideal) m c t.val t.isLt).2 (ix2 r k)
        = ∑ j ∈ Finset.range (t.val % 8 + 1), stepN m c (t.val - t.val % 8 + j) r k := by
  intro n
  induction n using Nat.strong_induction_on with
  | _ n ih =>
    intro t ht
    by_cases h0 : t.val % 8 = 0
    · have h1 : ¬t.val % 8 = 7 := by omega
      rw [outsAt0_A (F := Ideal) m c t h0 h1]
      dsimp only
      refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t)) (ix2 r k)).trans ?_
      refine (stored_at m c t (k0_pay3 (F := Ideal)) r k).trans ?_
      rw [BlockStep.pay3_apply, zero_add, h0, Finset.sum_range_one, Nat.sub_zero, Nat.add_zero]
    · have hpos : 0 < t.val := by
        rcases Nat.eq_zero_or_pos t.val with hz | hp
        · exact absurd (by rw [hz]) h0
        · exact hp
      have ihp : (outsAt0 (F := Ideal) m c (t.val - 1) (Nat.lt_of_le_of_lt (Nat.sub_le _ _) t.isLt)).2 (ix2 r k)
          = ∑ j ∈ Finset.range ((t.val - 1) % 8 + 1), stepN m c (t.val - 1 - (t.val - 1) % 8 + j) r k :=
        ih (t.val - 1) (by omega) ⟨t.val - 1, Nat.lt_of_le_of_lt (Nat.sub_le _ _) t.isLt⟩ rfl
      have e1 : (t.val - 1) % 8 + 1 = t.val % 8 := by omega
      have e2 : t.val - 1 - (t.val - 1) % 8 = t.val - t.val % 8 := by omega
      have e3 : t.val - t.val % 8 + t.val % 8 = t.val := by omega
      by_cases h1 : t.val % 8 = 7
      · rw [outsAt0_C (F := Ideal) m c t h0 h1]
        dsimp only
        refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (outsAt0 (F := Ideal) m c (t.val - 1) (Nat.lt_of_le_of_lt (Nat.sub_le _ _) t.isLt)).2) (ix2 r k)).trans ?_
        refine (stored_at m c t (outsAt0 (F := Ideal) m c (t.val - 1) (Nat.lt_of_le_of_lt (Nat.sub_le _ _) t.isLt)).2 r k).trans ?_
        rw [ihp, e1, e2, Finset.sum_range_succ _ (t.val % 8), e3]
      · rw [outsAt0_B (F := Ideal) m c t h0 h1]
        dsimp only
        refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (outsAt0 (F := Ideal) m c (t.val - 1) (Nat.lt_of_le_of_lt (Nat.sub_le _ _) t.isLt)).2) (ix2 r k)).trans ?_
        refine (stored_at m c t (outsAt0 (F := Ideal) m c (t.val - 1) (Nat.lt_of_le_of_lt (Nat.sub_le _ _) t.isLt)).2 r k).trans ?_
        rw [ihp, e1, e2, Finset.sum_range_succ _ (t.val % 8), e3]

/-- After the point at position t the carried sum holds the contributions of its row block's points so far. -/
theorem scratch_at (c : Dev nD) (t : Fin cfg0.N) (r : Fin 128) (k : Fin 256) :
    (outsAt0 (F := Ideal) m c t.val t.isLt).2 (ix2 r k)
      = ∑ j ∈ Finset.range (t.val % 8 + 1), stepN m c (t.val - t.val % 8 + j) r k :=
  scratch_aux m c r k t.val t rfl

/-- At the last point of a row block the result's buffer holds all eight contributions. -/
theorem result_at (c : Dev nD) (t : Fin cfg0.N) (h7 : t.val % 8 = 7) (r : Fin 128) (k : Fin 256) :
    (outsAt0 (F := Ideal) m c t.val t.isLt).1 (ix3 (0 : Fin 1) r k)
      = ∑ j ∈ Finset.range 8, stepN m c (t.val - 7 + j) r k := by
  have h0 : ¬t.val % 8 = 0 := by omega
  have h1 : t.val % 8 = 7 := h7
  have hs := scratch_at m c t r k
  rw [outsAt0_C (F := Ideal) m c t h0 h1] at hs
  dsimp only at hs
  rw [outsAt0_C (F := Ideal) m c t h0 h1]
  dsimp only
  refine (congrFun (out0_C_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (outsAt0 (F := Ideal) m c (t.val - 1) (Nat.lt_of_le_of_lt (Nat.sub_le _ _) t.isLt)).2) (ix3 (0 : Fin 1) r k)).trans ?_
  refine (BlockStep.pay2_apply _ r k).trans ?_
  refine ((congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (outsAt0 (F := Ideal) m c (t.val - 1) (Nat.lt_of_le_of_lt (Nat.sub_le _ _) t.isLt)).2) (ix2 r k)).symm.trans hs).trans ?_
  rw [h7]

end Cert.KernelIdeal.Hand

end
-- ==== Proof.Spec.lean ====
import Idealize.ShloMosaic.PureOps.Ideal
import Idealize.ShloMosaic.Lib.ValueIdx

/-!
# The two sides as formulas

A message-passing layer over a graph of 512 nodes in 2 batches. Each ordered pair of nodes (i, j) carries
the feature vector (x i, x j, adj i j) of length 128 + 128 + 16 = 272. A first linear map W1 followed
by an affine normalisation per channel (scale `inv g1 v1 h`, mean m1, shift b1) and a positive part gives 256
hidden channels; a second linear map W2 with its own normalisation and a hyperbolic tangent gives the
edge's message; node i's result is the sum of its 512 messages.

The reference normalises AFTER each linear map:  ((Σ_d f_d · W_d,h) − m_h) · s_h + b_h .
The kernel scales the COLUMNS of each linear map first and adds one combined shift:
  Σ_d f_d · (W_d,h · s_h) + (b_h − m_h · s_h) ,
splitting the first sum into the parts of x i, x j and adj i j, and the sum over j into 8 blocks of 64.
Both are stated here over plain families of extended reals; every sum is a `Finset.sum` over a `Fin`.
-/

noncomputable section

namespace Cert.Spec

open Idealize.ShloMosaic

/-- The variance floor both programs add under the reciprocal square root (the binary value of the f32 word). -/
def eps : EReal := Ideal.ofBits .f32 0x3727C5AC#32

/-- The per-channel scale of a normalisation: gain over the root of (variance + floor). -/
def inv (g v : Fin 256 → EReal) (h : Fin 256) : EReal := g h * Ideal.rsqrt (v h + eps)

section
variable (x : Fin 2 → Fin 512 → Fin 128 → EReal) (adj : Fin 2 → Fin 512 → Fin 512 → Fin 16 → EReal)
  (W1 : Fin 272 → Fin 256 → EReal) (g1 b1 m1 v1 : Fin 256 → EReal)
  (W2 : Fin 256 → Fin 256 → EReal) (g2 b2 m2 v2 : Fin 256 → EReal)

/-! ## The kernel's arrangement -/

/-- Rows 0–127 of W1 (the part that meets x i), columns scaled. -/
def wL (c : Fin 128) (h : Fin 256) : EReal := W1 ⟨c.val, by omega⟩ h * inv g1 v1 h
/-- Rows 128–255 of W1 (the part that meets x j), columns scaled. -/
def wR (c : Fin 128) (h : Fin 256) : EReal := W1 ⟨128 + c.val, by omega⟩ h * inv g1 v1 h
/-- Rows 256–271 of W1 (the part that meets adj i j), columns scaled. -/
def wA (c : Fin 16) (h : Fin 256) : EReal := W1 ⟨256 + c.val, by omega⟩ h * inv g1 v1 h
/-- W2, columns scaled. -/
def w2s (h k : Fin 256) : EReal := W2 h k * inv g2 v2 k
/-- The combined shifts. -/
def shift1 (h : Fin 256) : EReal := b1 h - m1 h * inv g1 v1 h
def shift2 (k : Fin 256) : EReal := b2 k - m2 k * inv g2 v2 k

/-- Node i's own part of a hidden channel, shift included: computed once per row. -/
def leftK (b : Fin 2) (i : Fin 512) (h : Fin 256) : EReal :=
  (∑ c : Fin 128, x b i c * wL W1 g1 v1 c h) + shift1 g1 b1 m1 v1 h
/-- Node j's part. -/
def rightK (b : Fin 2) (j : Fin 512) (h : Fin 256) : EReal := ∑ c : Fin 128, x b j c * wR W1 g1 v1 c h
/-- The edge's part. -/
def adjK (b : Fin 2) (i j : Fin 512) (h : Fin 256) : EReal := ∑ c : Fin 16, adj b i j c * wA W1 g1 v1 c h

/-- Hidden channel h of edge (i, j) as the kernel forms it. -/
def hidK (b : Fin 2) (i j : Fin 512) (h : Fin 256) : EReal :=
  max ((adjK adj W1 g1 v1 b i j h + leftK x W1 g1 b1 m1 v1 b i h) + rightK x W1 g1 v1 b j h) 0

/-- The edge's message, channel k, as the kernel forms it. -/
def edgeK (b : Fin 2) (i j : Fin 512) (k : Fin 256) : EReal :=
  Ideal.tanh ((∑ h : Fin 256, hidK x adj W1 g1 b1 m1 v1 b i j h * w2s W2 g2 v2 h k) + shift2 g2 b2 m2 v2 k)

/-- Node j as the jj-th of block jb (8 blocks of 64). -/
def jOf (jb : Fin 8) (jj : Fin 64) : Fin 512 := ⟨jb.val * 64 + jj.val, by omega⟩

/-- The kernel's result: block by block over j. -/
def outK (b : Fin 2) (i : Fin 512) (k : Fin 256) : EReal :=
  ∑ jb : Fin 8, ∑ jj : Fin 64, edgeK x adj W1 g1 b1 m1 v1 W2 g2 b2 m2 v2 b i (jOf jb jj) k

/-! ## The reference's arrangement -/

/-- The concatenated feature vector of edge (i, j). -/
def feat (b : Fin 2) (i j : Fin 512) (d : Fin 272) : EReal :=
  if h1 : d.val < 128 then x b i ⟨d.val, h1⟩
  else if h2 : d.val < 256 then x b j ⟨d.val - 128, by omega⟩
  else adj b i j ⟨d.val - 256, by omega⟩

def hidR (b : Fin 2) (i j : Fin 512) (h : Fin 256) : EReal :=
  max ((((∑ d : Fin 272, feat x adj b i j d * W1 d h) - m1 h) * inv g1 v1 h) + b1 h) 0

def edgeR (b : Fin 2) (i j : Fin 512) (k : Fin 256) : EReal :=
  Ideal.tanh (((((∑ h : Fin 256, hidR x adj W1 g1 b1 m1 v1 b i j h * W2 h k) - m2 k) * inv g2 v2 k)) + b2 k)

def outR (b : Fin 2) (i : Fin 512) (k : Fin 256) : EReal :=
  ∑ j : Fin 512, edgeR x adj W1 g1 b1 m1 v1 W2 g2 b2 m2 v2 b i j k

end

/-! ## Arrays as families -/

def fam1 {n : Nat} (f : (⟨1, ![n]⟩ : Shape).Idx → EReal) : Fin n → EReal := fun a => f (ValueIdx.ix1 a)
def fam2 {n0 n1 : Nat} (f : (⟨2, ![n0, n1]⟩ : Shape).Idx → EReal) : Fin n0 → Fin n1 → EReal :=
  fun a b => f (ValueIdx.ix2 a b)
def fam3 {n0 n1 n2 : Nat} (f : (⟨3, ![n0, n1, n2]⟩ : Shape).Idx → EReal) : Fin n0 → Fin n1 → Fin n2 → EReal :=
  fun a b c => f (ValueIdx.ix3 a b c)
def fam4 {n0 n1 n2 n3 : Nat} (f : (⟨4, ![n0, n1, n2, n3]⟩ : Shape).Idx → EReal) :
    Fin n0 → Fin n1 → Fin n2 → Fin n3 → EReal := fun a b c d => f (ValueIdx.ix4 a b c d)

/-- The kernel's result array as a function of the twelve argument arrays. -/
def GK (a0 : (⟨3, ![2, 512, 128]⟩ : Shape).Idx → EReal) (a1 : (⟨4, ![2, 512, 512, 16]⟩ : Shape).Idx → EReal)
    (a2 : (⟨2, ![272, 256]⟩ : Shape).Idx → EReal) (a3 a4 a5 a6 : (⟨1, ![256]⟩ : Shape).Idx → EReal)
    (a7 : (⟨2, ![256, 256]⟩ : Shape).Idx → EReal) (a8 a9 a10 a11 : (⟨1, ![256]⟩ : Shape).Idx → EReal) :
    (⟨3, ![2, 512, 256]⟩ : Shape).Idx → EReal :=
  fun i => outK (fam3 a0) (fam4 a1) (fam2 a2) (fam1 a3) (fam1 a4) (fam1 a5) (fam1 a6) (fam2 a7)
    (fam1 a8) (fam1 a9) (fam1 a10) (fam1 a11) (i 0) (i 1) (i 2)

/-- The reference's result array as a function of the twelve argument arrays. -/
def GR (a0 : (⟨3, ![2, 512, 128]⟩ : Shape).Idx → EReal) (a1 : (⟨4, ![2, 512, 512, 16]⟩ : Shape).Idx → EReal)
    (a2 : (⟨2, ![272, 256]⟩ : Shape).Idx → EReal) (a3 a4 a5 a6 : (⟨1, ![256]⟩ : Shape).Idx → EReal)
    (a7 : (⟨2, ![256, 256]⟩ : Shape).Idx → EReal) (a8 a9 a10 a11 : (⟨1, ![256]⟩ : Shape).Idx → EReal) :
    (⟨3, ![2, 512, 256]⟩ : Shape).Idx → EReal :=
  fun i => outR (fam3 a0) (fam4 a1) (fam2 a2) (fam1 a3) (fam1 a4) (fam1 a5) (fam1 a6) (fam2 a7)
    (fam1 a8) (fam1 a9) (fam1 a10) (fam1 a11) (i 0) (i 1) (i 2)

end Cert.Spec

end
-- ==== Proof.KI.Reads.lean ====
import proofs.«400706_j54133767798955_3_alg».proof.Proof.KI.Kit
import proofs.«400706_j54133767798955_3_alg».proof.Proof.Spec
import Idealize.ShloMosaic.Lib.StableHlo.Run
import Idealize.ShloMosaic.Lib.ValueIdx
import Idealize.ShloMosaic.Lib.ValueLayout
import Idealize.ShloMosaic.Lib.Pipeline.Value

/-!
# The arrays the region finds, and the blocks the points read from them

The seven arrays the host operations make before the region, entry by entry, in terms of the arguments (they are the
scaled weight columns, the combined shifts, and the adjacency tensor with its last two axes merged); and each
window's block at a point as entries of its array: the point at position t has batch t / 32, row block t / 8 mod 4
(rows of 128) and column block t mod 8 (columns of 64, or 1024 merged adjacency entries).
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx Cert.Spec

variable (m : (ℓ : Loc nD τ sig) → Buf (Elt Ideal) ℓ)

/-! ## The printed index maps over the grid -/

/-- The printed index maps of the three moving windows at the point at position t: batch t / 32, row block
    t / 8 mod 4, column block t mod 8. -/
theorem idx_moving : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = t.val % 8 ∧ win0_1.index t (2 : Fin 3) = 0
    ∧ win0_2.index t (0 : Fin 3) = t.val / 32 ∧ win0_2.index t (1 : Fin 3) = t.val / 8 % 4 ∧ win0_2.index t (2 : Fin 3) = t.val % 8 :=
  (by decide +kernel : ∀ t : Fin grid0.N, _)

/-- The six windows held whole sit at block 0 on both axes at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The host operations' terms read at an index -/

/-- Gain times the reciprocal root of (variance + floor), entry h: the per-channel scale. -/
theorem scale_apply (g v : FVec Ideal S256 .f32) (h : Fin 256) :
    mulf g (Host.rsqrt (F := Ideal) (addf v (broadcastInDim S256 ![] bcast_S_S256 (constant (F := Ideal) S_ .f32 0x3727C5AC#32)))) (ix1 h)
      = inv (fam1 g) (fam1 v) h := rfl

/-- A row of 256 entries copied down n rows reads, at (p, h), the row's entry h. -/
theorem rows_apply {n : Nat} (hb : S1x256.BroadcastsInDim (⟨2, ![n, 256]⟩ : Shape) ![0, 1]) (x : FVec Ideal S256 .f32) (p : Fin n) (h : Fin 256) :
    broadcastInDim (⟨2, ![n, 256]⟩ : Shape) ![0, 1] hb (broadcastInDim S1x256 ![1] bcast_S256_S1x256_1 x) (ix2 p h) = x (ix1 h) := by
  refine (broadcastInDim_apply _ _ _ (ix2 p h) (ix2 (0 : Fin 1) h) (fun a => match a with | ⟨0, _⟩ => rfl | ⟨1, _⟩ => rfl)).trans ?_
  exact broadcastInDim_apply _ _ _ (ix2 (0 : Fin 1) h) (ix1 h) (fun a => match a with | ⟨0, _⟩ => rfl)

/-- Rows o … o + n − 1 of the first weight matrix, each column times its scale. -/
theorem scaledRows_apply {n : Nat} (o : Nat) (hs : S272x256.Slices ![o, 0] (⟨2, ![n, 256]⟩ : Shape))
    (hb : S1x256.BroadcastsInDim (⟨2, ![n, 256]⟩ : Shape) ![0, 1])
    (a2 : FVec Ideal S272x256 .f32) (g v : FVec Ideal S256 .f32) (p : Fin n) (h : Fin 256) (k : Fin 272) (hk : k.val = o + p.val) :
    mulf (extractStridedSlice (⟨2, ![n, 256]⟩ : Shape) ![o, 0] a2 hs)
        (broadcastInDim (⟨2, ![n, 256]⟩ : Shape) ![0, 1] hb (broadcastInDim S1x256 ![1] bcast_S256_S1x256_1
          (mulf g (Host.rsqrt (F := Ideal) (addf v (broadcastInDim S256 ![] bcast_S_S256 (constant (F := Ideal) S_ .f32 0x3727C5AC#32))))))) (ix2 p h)
      = fam2 a2 k h * inv (fam1 g) (fam1 v) h := by
  rw [mulf_apply, rows_apply, scale_apply, slice2_axis0_apply o a2 hs p h k hk]
  rfl

/-- A combined shift, entry h: bias minus mean times scale, as a row. -/
theorem shiftRow_apply (g b mu v : FVec Ideal S256 .f32) (h : Fin 256) :
    shapeCast S1x256 (subf b (mulf mu (mulf g (Host.rsqrt (F := Ideal) (addf v (broadcastInDim S256 ![] bcast_S_S256 (constant (F := Ideal) S_ .f32 0x3727C5AC#32)))))))
        shapeCasts_S256_S1x256 (ix2 (0 : Fin 1) h)
      = fam1 b h - fam1 mu h * inv (fam1 g) (fam1 v) h := by
  rw [shapeCast_a_1a_apply]
  rfl

/-! ## The host operations' results -/

theorem V_wL (c : Dev nD) (cc : Fin 128) (h : Fin 256) :
    V (F := Ideal) m c main_v10 (ix2 cc h) = wL (fam2 (m ((c : Thread nD τ).loc main_arg2))) (fam1 (m ((c : Thread nD τ).loc main_arg3))) (fam1 (m ((c : Thread nD τ).loc main_arg6))) cc h := by
  have e : (V (F := Ideal) m c main_v10 : S128x256.Idx → EReal)
      = mulf (extractStridedSlice S128x256 ![0, 0] (m ((c : Thread nD τ).loc main_arg2)) slices_S272x256_S128x256_0_0)
          (broadcastInDim S128x256 ![0, 1] bcast_S1x256_S128x256_0_1 (broadcastInDim S1x256 ![1] bcast_S256_S1x256_1
            (mulf (m ((c : Thread nD τ).loc main_arg3)) (Host.rsqrt (F := Ideal) (addf (m ((c : Thread nD τ).loc main_arg6)) (broadcastInDim S256 ![] bcast_S_S256 (constant (F := Ideal) S_ .f32 0x3727C5AC#32))))))) := by
    dsimp only [V, hostOps0]; after_results_simp
  exact (congrFun e (ix2 cc h)).trans (scaledRows_apply 0 _ _ _ _ _ cc h ⟨cc.val, by omega⟩ (by simp))

theorem V_wR (c : Dev nD) (cc : Fin 128) (h : Fin 256) :
    V (F := Ideal) m c main_v14 (ix2 cc h) = wR (fam2 (m ((c : Thread nD τ).loc main_arg2))) (fam1 (m ((c : Thread nD τ).loc main_arg3))) (fam1 (m ((c : Thread nD τ).loc main_arg6))) cc h := by
  have e : (V (F := Ideal) m c main_v14 : S128x256.Idx → EReal)
      = mulf (extractStridedSlice S128x256 ![128, 0] (m ((c : Thread nD τ).loc main_arg2)) slices_S272x256_S128x256_128_0)
          (broadcastInDim S128x256 ![0, 1] bcast_S1x256_S128x256_0_1 (broadcastInDim S1x256 ![1] bcast_S256_S1x256_1
            (mulf (m ((c : Thread nD τ).loc main_arg3)) (Host.rsqrt (F := Ideal) (addf (m ((c : Thread nD τ).loc main_arg6)) (broadcastInDim S256 ![] bcast_S_S256 (constant (F := Ideal) S_ .f32 0x3727C5AC#32))))))) := by
    dsimp only [V, hostOps0]; after_results_simp
  exact (congrFun e (ix2 cc h)).trans (scaledRows_apply 128 _ _ _ _ _ cc h ⟨128 + cc.val, by omega⟩ rfl)
theorem V_wA (c : Dev nD) (cc : Fin 16) (h : Fin 256) :
    V (F := Ideal) m c main_v18 (ix2 cc h) = wA (fam2 (m ((c : Thread nD τ).loc main_arg2))) (fam1 (m ((c : Thread nD τ).loc main_arg3))) (fam1 (m ((c : Thread nD τ).loc main_arg6))) cc h := by
  have e : (V (F := Ideal) m c main_v18 : S16x256.Idx → EReal)
      = mulf (extractStridedSlice S16x256 ![256, 0] (m ((c : Thread nD τ).loc main_arg2)) slices_S272x256_S16x256_256_0)
          (broadcastInDim S16x256 ![0, 1] bcast_S1x256_S16x256_0_1 (broadcastInDim S1x256 ![1] bcast_S256_S1x256_1
            (mulf (m ((c : Thread nD τ).loc main_arg3)) (Host.rsqrt (F := Ideal) (addf (m ((c : Thread nD τ).loc main_arg6)) (broadcastInDim S256 ![] bcast_S_S256 (constant (F := Ideal) S_ .f32 0x3727C5AC#32))))))) := by
    dsimp only [V, hostOps0]; after_results_simp
  exact (congrFun e (ix2 cc h)).trans (scaledRows_apply 256 _ _ _ _ _ cc h ⟨256 + cc.val, by omega⟩ rfl)
theorem V_w2s (c : Dev nD) (h k : Fin 256) :
    V (F := Ideal) m c main_v28 (ix2 h k) = w2s (fam2 (m ((c : Thread nD τ).loc main_arg7))) (fam1 (m ((c : Thread nD τ).loc main_arg8))) (fam1 (m ((c : Thread nD τ).loc main_arg11))) h k := by
  have e : (V (F := Ideal) m c main_v28 : S256x256.Idx → EReal)
      = mulf (m ((c : Thread nD τ).loc main_arg7))
          (broadcastInDim S256x256 ![0, 1] bcast_S1x256_S256x256_0_1 (broadcastInDim S1x256 ![1] bcast_S256_S1x256_1
            (mulf (m ((c : Thread nD τ).loc main_arg8)) (Host.rsqrt (F := Ideal) (addf (m ((c : Thread nD τ).loc main_arg11)) (broadcastInDim S256 ![] bcast_S_S256 (constant (F := Ideal) S_ .f32 0x3727C5AC#32))))))) := by
    dsimp only [V, hostOps0]; after_results_simp
  refine (congrFun e (ix2 h k)).trans ?_
  rw [mulf_apply, rows_apply, scale_apply]
  rfl
theorem V_shift1 (c : Dev nD) (h : Fin 256) :
    V (F := Ideal) m c main_v6 (ix2 (0 : Fin 1) h) = shift1 (fam1 (m ((c : Thread nD τ).loc main_arg3))) (fam1 (m ((c : Thread nD τ).loc main_arg4))) (fam1 (m ((c : Thread nD τ).loc main_arg5))) (fam1 (m ((c : Thread nD τ).loc main_arg6))) h := by
  have e : (V (F := Ideal) m c main_v6 : S1x256.Idx → EReal)
      = shapeCast S1x256 (subf (m ((c : Thread nD τ).loc main_arg4)) (mulf (m ((c : Thread nD τ).loc main_arg5))
          (mulf (m ((c : Thread nD τ).loc main_arg3)) (Host.rsqrt (F := Ideal) (addf (m ((c : Thread nD τ).loc main_arg6)) (broadcastInDim S256 ![] bcast_S_S256 (constant (F := Ideal) S_ .f32 0x3727C5AC#32)))))))
          shapeCasts_S256_S1x256 := by
    dsimp only [V, hostOps0]; after_results_simp; rfl
  exact (congrFun e (ix2 (0 : Fin 1) h)).trans (shiftRow_apply _ _ _ _ h)
theorem V_shift2 (c : Dev nD) (k : Fin 256) :
    V (F := Ideal) m c main_v25 (ix2 (0 : Fin 1) k) = shift2 (fam1 (m ((c : Thread nD τ).loc main_arg8))) (fam1 (m ((c : Thread nD τ).loc main_arg9))) (fam1 (m ((c : Thread nD τ).loc main_arg10))) (fam1 (m ((c : Thread nD τ).loc main_arg11))) k := by
  have e : (V (F := Ideal) m c main_v25 : S1x256.Idx → EReal)
      = shapeCast S1x256 (subf (m ((c : Thread nD τ).loc main_arg9)) (mulf (m ((c : Thread nD τ).loc main_arg10))
          (mulf (m ((c : Thread nD τ).loc main_arg8)) (Host.rsqrt (F := Ideal) (addf (m ((c : Thread nD τ).loc main_arg11)) (broadcastInDim S256 ![] bcast_S_S256 (constant (F := Ideal) S_ .f32 0x3727C5AC#32)))))))
          shapeCasts_S256_S1x256 := by
    dsimp only [V, hostOps0]; after_results_simp; rfl
  exact (congrFun e (ix2 (0 : Fin 1) k)).trans (shiftRow_apply _ _ _ _ k)
/-- The adjacency tensor with its last two axes merged: entry q of the merged axis is (q / 16, q mod 16). -/
theorem V_adj (c : Dev nD) (b : Fin 2) (i : Fin 512) (j : Fin 512) (cc : Fin 16) :
    V (F := Ideal) m c main_v29 (ix3 b i (⟨j.val * 16 + cc.val, by omega⟩ : Fin 8192)) = (m ((c : Thread nD τ).loc main_arg1)) (ix4 b i j cc) := by
  have e : (V (F := Ideal) m c main_v29 : S2x512x8192.Idx → EReal)
      = shapeCast S2x512x8192 (m ((c : Thread nD τ).loc main_arg1)) shapeCasts_S2x512x512x16_S2x512x8192 := by
    dsimp only [V, hostOps0]; after_results_simp; rfl
  refine (congrFun e _).trans ?_
  refine shapeCast_apply _ _ _ (ix4 b i j cc) ?_
  rw [Shape.rowMajor_val_three, Shape.rowMajor_val_four]
  show ((b.val * 512 + i.val) * 512 + j.val) * 16 + cc.val = (b.val * 512 + i.val) * 8192 + (j.val * 16 + cc.val)
  omega

/-! ## The windows' blocks -/

/-- Row block: rows (t / 8 mod 4)·128 + r of batch t / 32. -/
theorem iblk0_apply (c : Dev nD) (t : Fin cfg0.N) (r : Fin 128) (cc : Fin 128) :
    iblk (F := Ideal) m c 0 t (ix3 (0 : Fin 1) r cc)
      = (m ((c : Thread nD τ).loc main_arg0)) (ix3 (⟨t.val / 32, by have := t.isLt; have : cfg0.N = 64 := N_0; omega⟩ : Fin 2) (⟨t.val / 8 % 4 * 128 + r.val, by omega⟩ : Fin 512) cc) := by
  show V m c main_arg0 (((cfg0.win 0).blk t).view.emb (ix3 (0 : Fin 1) r cc)) = _
  rw [V_main_arg0]
  refine congrArg _ ?_
  obtain ⟨e0, e1, e2, -⟩ := idx_moving t
  funext a; apply Fin.ext
  match a with
  | ⟨0, _⟩ => show win0_0.index t (0 : Fin 3) * 1 + 1 * (0 : Fin 1).val = t.val / 32; rw [e0]; simp
  | ⟨1, _⟩ => show win0_0.index t (1 : Fin 3) * 128 + 1 * r.val = t.val / 8 % 4 * 128 + r.val; rw [e1]; omega
  | ⟨2, _⟩ => show win0_0.index t (2 : Fin 3) * 128 + 1 * cc.val = cc.val; rw [e2]; omega
/-- Column block: rows (t mod 8)·64 + jj of batch t / 32. -/
theorem iblk1_apply (c : Dev nD) (t : Fin cfg0.N) (jj : Fin 64) (cc : Fin 128) :
    iblk (F := Ideal) m c 1 t (ix3 (0 : Fin 1) jj cc)
      = (m ((c : Thread nD τ).loc main_arg0)) (ix3 (⟨t.val / 32, by have := t.isLt; have : cfg0.N = 64 := N_0; omega⟩ : Fin 2) (⟨t.val % 8 * 64 + jj.val, by omega⟩ : Fin 512) cc) := by
  show V m c main_arg0 (((cfg0.win 1).blk t).view.emb (ix3 (0 : Fin 1) jj cc)) = _
  rw [V_main_arg0]
  refine congrArg _ ?_
  obtain ⟨-, -, -, e0, e1, e2, -⟩ := idx_moving t
  funext a; apply Fin.ext
  match a with
  | ⟨0, _⟩ => show win0_1.index t (0 : Fin 3) * 1 + 1 * (0 : Fin 1).val = t.val / 32; rw [e0]; simp
  | ⟨1, _⟩ => show win0_1.index t (1 : Fin 3) * 64 + 1 * jj.val = t.val % 8 * 64 + jj.val; rw [e1]; omega
  | ⟨2, _⟩ => show win0_1.index t (2 : Fin 3) * 128 + 1 * cc.val = cc.val; rw [e2]; omega
/-- Merged adjacency block: row (t / 8 mod 4)·128 + r, merged entries (t mod 8)·1024 + q. -/
theorem iblk2_apply (c : Dev nD) (t : Fin cfg0.N) (r : Fin 128) (q : Fin 1024) :
    iblk (F := Ideal) m c 2 t (ix3 (0 : Fin 1) r q)
      = V (F := Ideal) m c main_v29 (ix3 (⟨t.val / 32, by have := t.isLt; have : cfg0.N = 64 := N_0; omega⟩ : Fin 2) (⟨t.val / 8 % 4 * 128 + r.val, by omega⟩ : Fin 512) (⟨t.val % 8 * 1024 + q.val, by omega⟩ : Fin 8192)) := by
  show V m c main_v29 (((cfg0.win 2).blk t).view.emb (ix3 (0 : Fin 1) r q)) = _
  refine congrArg _ ?_
  obtain ⟨-, -, -, -, -, -, e0, e1, e2⟩ := idx_moving t
  funext a; apply Fin.ext
  match a with
  | ⟨0, _⟩ => show win0_2.index t (0 : Fin 3) * 1 + 1 * (0 : Fin 1).val = t.val / 32; rw [e0]; simp
  | ⟨1, _⟩ => show win0_2.index t (1 : Fin 3) * 128 + 1 * r.val = t.val / 8 % 4 * 128 + r.val; rw [e1]; omega
  | ⟨2, _⟩ => show win0_2.index t (2 : Fin 3) * 1024 + 1 * q.val = t.val % 8 * 1024 + q.val; rw [e2]; omega
/-- The six arrays held whole: the block is the array. -/
theorem iblk3_eq (c : Dev nD) (t : Fin cfg0.N) : iblk (F := Ideal) m c 3 t = V (F := Ideal) m c main_v10 := by
  obtain ⟨e0, e1, -⟩ := idx_whole t
  have key : ∀ y : S128x256.Idx, ((cfg0.win 3).blk t).view.emb y = y := fun y => by
    funext a; apply Fin.ext
    match a with
    | ⟨0, _⟩ => show win0_3.index t (0 : Fin 2) * 128 + 1 * (y 0).val = (y 0).val; rw [e0]; omega
    | ⟨1, _⟩ => show win0_3.index t (1 : Fin 2) * 256 + 1 * (y 1).val = (y 1).val; rw [e1]; omega
  funext y
  show V m c main_v10 (((cfg0.win 3).blk t).view.emb y) = V m c main_v10 y
  exact congrArg _ (key y)
theorem iblk4_eq (c : Dev nD) (t : Fin cfg0.N) : iblk (F := Ideal) m c 4 t = V (F := Ideal) m c main_v14 := by
  obtain ⟨-, -, e0, e1, -⟩ := idx_whole t
  have key : ∀ y : S128x256.Idx, ((cfg0.win 4).blk t).view.emb y = y := fun y => by
    funext a; apply Fin.ext
    match a with
    | ⟨0, _⟩ => show win0_4.index t (0 : Fin 2) * 128 + 1 * (y 0).val = (y 0).val; rw [e0]; omega
    | ⟨1, _⟩ => show win0_4.index t (1 : Fin 2) * 256 + 1 * (y 1).val = (y 1).val; rw [e1]; omega
  funext y
  show V m c main_v14 (((cfg0.win 4).blk t).view.emb y) = V m c main_v14 y
  exact congrArg _ (key y)
theorem iblk5_eq (c : Dev nD) (t : Fin cfg0.N) : iblk (F := Ideal) m c 5 t = V (F := Ideal) m c main_v18 := by
  obtain ⟨-, -, -, -, e0, e1, -⟩ := idx_whole t
  have key : ∀ y : S16x256.Idx, ((cfg0.win 5).blk t).view.emb y = y := fun y => by
    funext a; apply Fin.ext
    match a with
    | ⟨0, _⟩ => show win0_5.index t (0 : Fin 2) * 16 + 1 * (y 0).val = (y 0).val; rw [e0]; omega
    | ⟨1, _⟩ => show win0_5.index t (1 : Fin 2) * 256 + 1 * (y 1).val = (y 1).val; rw [e1]; omega
  funext y
  show V m c main_v18 (((cfg0.win 5).blk t).view.emb y) = V m c main_v18 y
  exact congrArg _ (key y)
theorem iblk6_eq (c : Dev nD) (t : Fin cfg0.N) : iblk (F := Ideal) m c 6 t = V (F := Ideal) m c main_v28 := by
  obtain ⟨-, -, -, -, -, -, e0, e1, -⟩ := idx_whole t
  have key : ∀ y : S256x256.Idx, ((cfg0.win 6).blk t).view.emb y = y := fun y => by
    funext a; apply Fin.ext
    match a with
    | ⟨0, _⟩ => show win0_6.index t (0 : Fin 2) * 256 + 1 * (y 0).val = (y 0).val; rw [e0]; omega
    | ⟨1, _⟩ => show win0_6.index t (1 : Fin 2) * 256 + 1 * (y 1).val = (y 1).val; rw [e1]; omega
  funext y
  show V m c main_v28 (((cfg0.win 6).blk t).view.emb y) = V m c main_v28 y
  exact congrArg _ (key y)
theorem iblk7_eq (c : Dev nD) (t : Fin cfg0.N) : iblk (F := Ideal) m c 7 t = V (F := Ideal) m c main_v6 := by
  obtain ⟨-, -, -, -, -, -, -, -, e0, e1, -⟩ := idx_whole t
  have key : ∀ y : S1x256.Idx, ((cfg0.win 7).blk t).view.emb y = y := fun y => by
    funext a; apply Fin.ext
    match a with
    | ⟨0, _⟩ => show win0_7.index t (0 : Fin 2) * 1 + 1 * (y 0).val = (y 0).val; rw [e0]; omega
    | ⟨1, _⟩ => show win0_7.index t (1 : Fin 2) * 256 + 1 * (y 1).val = (y 1).val; rw [e1]; omega
  funext y
  show V m c main_v6 (((cfg0.win 7).blk t).view.emb y) = V m c main_v6 y
  exact congrArg _ (key y)
theorem iblk8_eq (c : Dev nD) (t : Fin cfg0.N) : iblk (F := Ideal) m c 8 t = V (F := Ideal) m c main_v25 := by
  obtain ⟨-, -, -, -, -, -, -, -, -, -, e0, e1⟩ := idx_whole t
  have key : ∀ y : S1x256.Idx, ((cfg0.win 8).blk t).view.emb y = y := fun y => by
    funext a; apply Fin.ext
    match a with
    | ⟨0, _⟩ => show win0_8.index t (0 : Fin 2) * 1 + 1 * (y 0).val = (y 0).val; rw [e0]; omega
    | ⟨1, _⟩ => show win0_8.index t (1 : Fin 2) * 256 + 1 * (y 1).val = (y 1).val; rw [e1]; omega
  funext y
  show V m c main_v25 (((cfg0.win 8).blk t).view.emb y) = V m c main_v25 y
  exact congrArg _ (key y)

end Cert.KernelIdeal.Hand

end
-- ==== Proof.KI.StepSpec.lean ====
import proofs.«400706_j54133767798955_3_alg».proof.Proof.KI.Accum
import proofs.«400706_j54133767798955_3_alg».proof.Proof.KI.Reads

/-!
# One point's contribution is the specification's inner sum

The point at position t (batch t / 32, row block t / 8 mod 4, column block t mod 8) adds, at row r and channel k, the
64 messages of its column block to node (t / 8 mod 4)·128 + r: the specification's `edgeK` at nodes
`jOf (t mod 8) jj`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx Cert.Spec

variable [Cert.KernelIdeal.Facts]
variable (m : (ℓ : Loc nD τ sig) → Buf (Elt Ideal) ℓ)

/-! ## Each block's entry as an entry of the arguments -/

/-- The merged adjacency block at column jj·16 + cc of row r is the adjacency of nodes
    (t / 8 mod 4)·128 + r and (t mod 8)·64 + jj, channel cc: (t mod 8)·1024 + jj·16 + cc = ((t mod 8)·64 + jj)·16 + cc. -/
theorem blk2_entry (c : Dev nD) (t : Fin cfg0.N) (r : Fin 128) (jj : Fin 64) (cc : Fin 16) :
    iblk (F := Ideal) m c 2 t (ix3 (0 : Fin 1) r (⟨jj.val * 16 + cc.val, by omega⟩ : Fin 1024))
      = fam4 (m ((c : Thread nD τ).loc main_arg1))
          (⟨t.val / 32, by have := t.isLt; have : cfg0.N = 64 := N_0; omega⟩ : Fin 2)
          (⟨t.val / 8 % 4 * 128 + r.val, by omega⟩ : Fin 512)
          (jOf (⟨t.val % 8, by omega⟩ : Fin 8) jj) cc := by
  refine (iblk2_apply m c t r (⟨jj.val * 16 + cc.val, by omega⟩ : Fin 1024)).trans ?_
  have e : (⟨t.val % 8 * 1024 + (jj.val * 16 + cc.val), by omega⟩ : Fin 8192)
      = (⟨(jOf (⟨t.val % 8, by omega⟩ : Fin 8) jj).val * 16 + cc.val, by omega⟩ : Fin 8192) :=
    Fin.ext (by
      show t.val % 8 * 1024 + (jj.val * 16 + cc.val) = (t.val % 8 * 64 + jj.val) * 16 + cc.val
      omega)
  refine (congrArg (fun q : Fin 8192 => V (F := Ideal) m c main_v29
    (ix3 (⟨t.val / 32, by have := t.isLt; have : cfg0.N = 64 := N_0; omega⟩ : Fin 2)
      (⟨t.val / 8 % 4 * 128 + r.val, by omega⟩ : Fin 512) q)) e).trans ?_
  exact V_adj m c _ _ (jOf (⟨t.val % 8, by omega⟩ : Fin 8) jj) cc

/-- The row block at row r is node (t / 8 mod 4)·128 + r of batch t / 32. -/
theorem blk0_entry (c : Dev nD) (t : Fin cfg0.N) (r : Fin 128) (cc : Fin 128) :
    iblk (F := Ideal) m c 0 t (ix3 (0 : Fin 1) r cc)
      = fam3 (m ((c : Thread nD τ).loc main_arg0))
          (⟨t.val / 32, by have := t.isLt; have : cfg0.N = 64 := N_0; omega⟩ : Fin 2)
          (⟨t.val / 8 % 4 * 128 + r.val, by omega⟩ : Fin 512) cc :=
  iblk0_apply m c t r cc

/-- The column block at row jj is node (t mod 8)·64 + jj of batch t / 32. -/
theorem blk1_entry (c : Dev nD) (t : Fin cfg0.N) (jj : Fin 64) (cc : Fin 128) :
    iblk (F := Ideal) m c 1 t (ix3 (0 : Fin 1) jj cc)
      = fam3 (m ((c : Thread nD τ).loc main_arg0))
          (⟨t.val / 32, by have := t.isLt; have : cfg0.N = 64 := N_0; omega⟩ : Fin 2)
          (jOf (⟨t.val % 8, by omega⟩ : Fin 8) jj) cc :=
  iblk1_apply m c t jj cc

/-- The left weights' block is the scaled rows 0–127 of the first linear map. -/
theorem blk3_entry (c : Dev nD) (t : Fin cfg0.N) (cc : Fin 128) (h : Fin 256) :
    iblk (F := Ideal) m c 3 t (ix2 cc h)
      = wL (fam2 (m ((c : Thread nD τ).loc main_arg2))) (fam1 (m ((c : Thread nD τ).loc main_arg3))) (fam1 (m ((c : Thread nD τ).loc main_arg6))) cc h :=
  (congrFun (iblk3_eq m c t) (ix2 cc h)).trans (V_wL m c cc h)

/-- The right weights' block is the scaled rows 128–255. -/
theorem blk4_entry (c : Dev nD) (t : Fin cfg0.N) (cc : Fin 128) (h : Fin 256) :
    iblk (F := Ideal) m c 4 t (ix2 cc h)
      = wR (fam2 (m ((c : Thread nD τ).loc main_arg2))) (fam1 (m ((c : Thread nD τ).loc main_arg3))) (fam1 (m ((c : Thread nD τ).loc main_arg6))) cc h :=
  (congrFun (iblk4_eq m c t) (ix2 cc h)).trans (V_wR m c cc h)

/-- The adjacency weights' block is the scaled rows 256–271. -/
theorem blk5_entry (c : Dev nD) (t : Fin cfg0.N) (cc : Fin 16) (h : Fin 256) :
    iblk (F := Ideal) m c 5 t (ix2 cc h)
      = wA (fam2 (m ((c : Thread nD τ).loc main_arg2))) (fam1 (m ((c : Thread nD τ).loc main_arg3))) (fam1 (m ((c : Thread nD τ).loc main_arg6))) cc h :=
  (congrFun (iblk5_eq m c t) (ix2 cc h)).trans (V_wA m c cc h)

/-- The second weights' block is the scaled second linear map. -/
theorem blk6_entry (c : Dev nD) (t : Fin cfg0.N) (h k : Fin 256) :
    iblk (F := Ideal) m c 6 t (ix2 h k)
      = w2s (fam2 (m ((c : Thread nD τ).loc main_arg7))) (fam1 (m ((c : Thread nD τ).loc main_arg8))) (fam1 (m ((c : Thread nD τ).loc main_arg11))) h k :=
  (congrFun (iblk6_eq m c t) (ix2 h k)).trans (V_w2s m c h k)

/-- The first shift row. -/
theorem blk7_entry (c : Dev nD) (t : Fin cfg0.N) (h : Fin 256) :
    iblk (F := Ideal) m c 7 t (ix2 (0 : Fin 1) h)
      = shift1 (fam1 (m ((c : Thread nD τ).loc main_arg3))) (fam1 (m ((c : Thread nD τ).loc main_arg4))) (fam1 (m ((c : Thread nD τ).loc main_arg5))) (fam1 (m ((c : Thread nD τ).loc main_arg6))) h :=
  (congrFun (iblk7_eq m c t) (ix2 (0 : Fin 1) h)).trans (V_shift1 m c h)

/-- The second shift row. -/
theorem blk8_entry (c : Dev nD) (t : Fin cfg0.N) (k : Fin 256) :
    iblk (F := Ideal) m c 8 t (ix2 (0 : Fin 1) k)
      = shift2 (fam1 (m ((c : Thread nD τ).loc main_arg8))) (fam1 (m ((c : Thread nD τ).loc main_arg9))) (fam1 (m ((c : Thread nD τ).loc main_arg10))) (fam1 (m ((c : Thread nD τ).loc main_arg11))) k :=
  (congrFun (iblk8_eq m c t) (ix2 (0 : Fin 1) k)).trans (V_shift2 m c k)

/-! ## The contribution -/

theorem stepN_eq (c : Dev nD) (t : Fin cfg0.N) (r : Fin 128) (k : Fin 256) :
    stepN m c t.val r k
      = ∑ jj : Fin 64, edgeK (fam3 (m ((c : Thread nD τ).loc main_arg0))) (fam4 (m ((c : Thread nD τ).loc main_arg1))) (fam2 (m ((c : Thread nD τ).loc main_arg2))) (fam1 (m ((c : Thread nD τ).loc main_arg3))) (fam1 (m ((c : Thread nD τ).loc main_arg4))) (fam1 (m ((c : Thread nD τ).loc main_arg5))) (fam1 (m ((c : Thread nD τ).loc main_arg6))) (fam2 (m ((c : Thread nD τ).loc main_arg7))) (fam1 (m ((c : Thread nD τ).loc main_arg8))) (fam1 (m ((c : Thread nD τ).loc main_arg9))) (fam1 (m ((c : Thread nD τ).loc main_arg10))) (fam1 (m ((c : Thread nD τ).loc main_arg11)))
          (⟨t.val / 32, by have := t.isLt; have : cfg0.N = 64 := N_0; omega⟩ : Fin 2)
          (⟨t.val / 8 % 4 * 128 + r.val, by omega⟩ : Fin 512)
          (jOf (⟨t.val % 8, by omega⟩ : Fin 8) jj) k := by
  unfold stepN
  rw [dif_pos t.isLt]
  unfold BlockStep.stepSum
  refine Finset.sum_congr rfl fun jj _ => ?_
  unfold edgeK hidK adjK leftK rightK
  refine congrArg Ideal.tanh ?_
  refine congrArg₂ (fun a b : EReal => a + b) ?_ (blk8_entry m c t k)
  refine Finset.sum_congr rfl fun h _ => ?_
  refine congrArg₂ (fun a b : EReal => a * b) ?_ (blk6_entry m c t h k)
  refine congrArg (fun a : EReal => max a 0) ?_
  refine congrArg₂ (fun a b : EReal => a + b)
    (congrArg₂ (fun a b : EReal => a + b) ?_ (congrArg₂ (fun a b : EReal => a + b) ?_ (blk7_entry m c t h))) ?_
  · exact Finset.sum_congr rfl fun cc _ =>
      congrArg₂ (fun a b : EReal => a * b) (blk2_entry m c t r jj cc) (blk5_entry m c t cc h)
  · exact Finset.sum_congr rfl fun cc _ =>
      congrArg₂ (fun a b : EReal => a * b) (blk0_entry m c t r cc) (blk3_entry m c t cc h)
  · exact Finset.sum_congr rfl fun cc _ =>
      congrArg₂ (fun a b : EReal => a * b) (blk1_entry m c t jj cc) (blk4_entry m c t cc h)

end Cert.KernelIdeal.Hand

end
-- ==== Proof.KI.Split.lean ====
import proofs.«400706_j54133767798955_3_alg».proof.Proof.KI.Kit
import proofs.«400706_j54133767798955_3_alg».proof.Proof.KI.Shares

/-!
# One array behind two windows

The node features are handed to the region twice: window 0 reads a row block of them, window 1 a column block.
The launch holds each DISTINCT buffer behind the windows' arrays whole; the pipeline wants one holding per WINDOW.
The buffer of the node features is therefore divided between windows 0 and 1, half a share each (both only read it);
every other buffer goes whole to its one window.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The distinct buffers behind the ten windows' arrays, conjoined one by one: nine, the node features' buffer once. -/
theorem bigSep_arrBufs0 {M : Type} [URA M] (Φ : Ref sig .tc → sProp M) :
    bigSep (Finset.univ.image (Pipeline.arrRef spec0)) Φ
      = iprop(Φ main_arg0 ∗ Φ main_v29 ∗ Φ main_v10 ∗ Φ main_v14 ∗ Φ main_v18 ∗ Φ main_v28 ∗ Φ main_v6 ∗ Φ main_v25 ∗ Φ main_v30) :=
  bigSep_eq_bigSepL_of_eq [main_arg0, main_v29, main_v10, main_v14, main_v18, main_v28, main_v6, main_v25, main_v30] (by decide) (by decide) Φ

/-- The distinct buffers behind the arrays, each whole at its region-entry contents, make the ten windows' holdings
    at entry, for any proof data with those shares whose entry arrays are the region-entry contents. -/
theorem arrays_of_arrBufs {c : Dev nD} (dat : Dat τ (Elt F) Unit ℕ (UR sig nD τ) ℕ cfg0 c)
    (hq : dat.q = qShare) (hA : ∀ w, dat.A w = V m c (Pipeline.arrRef spec0 w)) :
    (Pipeline.arrBufs spec0 c (V m c) : sProp 𝕄) ⊢ dat.arrays (dat.arrAt · 0) := by
  -- a window's holding of its array — a whole buffer — is the buffer's whole points-to, at entry at the region-entry contents
  have hW : ∀ w : Fin 10, (((cfg0.win w).arr.view.loc (c : Thread nD τ)) ↦[(cfg0.win w).arr.view.set]{dat.share w} dat.arrAt w 0 : sProp 𝕄)
      = (((c : Thread nD τ).loc (Pipeline.arrRef spec0 w)) ↦{dat.share w} V m c (Pipeline.arrRef spec0 w)) := fun w => by
    rw [(arr_whole0 w).set_eq_univ]
    show (_ ↦{dat.share w} dat.A w) = _
    rw [hA w]
  -- the shares: the two readers of the node features a half each, every other window the full share (the result's as an output)
  have h0 : dat.share 0 = fullShare.left := by unfold Dat.share; rw [hq]; rfl
  have h1 : dat.share 1 = fullShare.right := by unfold Dat.share; rw [hq]; rfl
  have hr : ∀ w : Fin 10, w ≠ 0 → w ≠ 1 → dat.share w = fullShare := fun w => by
    unfold Dat.share; rw [hq]; revert w; decide
  unfold Pipeline.arrBufs Dat.arrays
  rw [bigSep_congr (fun w _ => hW w), bigSep_W0, bigSep_arrBufs0,
    h0, h1, hr 2 (by decide) (by decide), hr 3 (by decide) (by decide), hr 4 (by decide) (by decide), hr 5 (by decide) (by decide),
    hr 6 (by decide) (by decide), hr 7 (by decide) (by decide), hr 8 (by decide) (by decide), hr 9 (by decide) (by decide)]
  -- nine whole buffers on the left, ten holdings on the right: the node features' buffer is divided along its share, the rest pass as they are
  iintro ⟨H0, H2, H3, H4, H5, H6, H7, H8, H9⟩
  icases (pointsTo_share (PosShare.mem_left_op_right fullShare)).1 $$ H0 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.KI.Launch.lean ====
import proofs.«400706_j54133767798955_3_alg».proof.Proof.KI.Frame
import proofs.«400706_j54133767798955_3_alg».proof.Proof.KI.Split
import Idealize.ShloMosaic.Lib.Pipeline.Launch
import Idealize.ShloMosaic.Lib.Pipeline.Frame

/-!
# The run

The region is launched with its windows sharing an array: the buffers behind the arrays are dealt to the windows
(the node features' buffer half and half to its two readers), the scratch reaches the body through the invariant,
every other buffer bypasses the region. The run terminates, faults nowhere, leaves every bypassing buffer and every
input array as it was, and leaves the result's array at what the library computes from the proof data.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates; every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := fun c => arrays_of_arrBufs m (dats m 0 c) (q_eq m c) (A_eq m c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run with the result's array named and the twelve arguments read back: the node features are an input array
    of the pipeline (either of its two windows says so), the other eleven bypass the region, and no host operation
    writes an argument. -/
theorem run_named : θ_run defs (onTc (τ := τ) (main (F := F))) ⟨m, fun _ => 0, ρ⟩ (fun r => ∀ c : Dev nD,
      r.2.mem ((c.tc : Thread nD τ).loc main_v30) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 9, ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

/-- The frame: the run terminates, faults nowhere and leaves the twelve arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_named m ρ)

end Cert.KernelIdeal.Hand

end
-- ==== Proof.KI.Final.lean ====
import proofs.«400706_j54133767798955_3_alg».proof.Proof.KI.StepSpec
import proofs.«400706_j54133767798955_3_alg».proof.Proof.KI.Launch
import Idealize.ShloMosaic.Lib.Pipeline.Value

/-!
# The result's array after the run

The result's window is written back at the last point of each row block (column block 7), once per (batch, row
block): what is written is the finished carried sum, the eight column blocks' contributions, which at row r and
channel k is the specification's sum over all 512 nodes j for node (row block)·128 + r. The sixteen written blocks
tile the array, so the array ends at the specification's `GK` of the twelve arguments.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx Cert.Spec

variable (m : (ℓ : Loc nD τ sig) → Buf (Elt Ideal) ℓ)

/-- The specification's result array of this memory's arguments. -/
abbrev GKm (c : Dev nD) : S2x512x256.Idx → EReal := GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The result window's block index at the point at position t: (batch, row block, 0). -/
theorem idx9 : ∀ t : Fin cfg0.N, win0_9.index t (0 : Fin 3) = t.val / 32 ∧ win0_9.index t (1 : Fin 3) = t.val / 8 % 4
    ∧ win0_9.index t (2 : Fin 3) = 0 :=
  (by decide +kernel : ∀ t : Fin grid0.N, _)

/-- One point's contribution, with the point's coordinates named. -/
theorem stepN_at (c : Dev nD) (n : ℕ) (hn : n < cfg0.N) (b : Fin 2) (i : Fin 512) (jb : Fin 8) (r : Fin 128) (k : Fin 256)
    (hb : b.val = n / 32) (hi : i.val = n / 8 % 4 * 128 + r.val) (hj : jb.val = n % 8) :
    stepN m c n r k = ∑ jj : Fin 64, edgeK (fam3 (m ((c : Thread nD τ).loc main_arg0))) (fam4 (m ((c : Thread nD τ).loc main_arg1))) (fam2 (m ((c : Thread nD τ).loc main_arg2))) (fam1 (m ((c : Thread nD τ).loc main_arg3))) (fam1 (m ((c : Thread nD τ).loc main_arg4))) (fam1 (m ((c : Thread nD τ).loc main_arg5))) (fam1 (m ((c : Thread nD τ).loc main_arg6))) (fam2 (m ((c : Thread nD τ).loc main_arg7))) (fam1 (m ((c : Thread nD τ).loc main_arg8))) (fam1 (m ((c : Thread nD τ).loc main_arg9))) (fam1 (m ((c : Thread nD τ).loc main_arg10))) (fam1 (m ((c : Thread nD τ).loc main_arg11))) b i (jOf jb jj) k := by
  have hN : cfg0.N = 64 := N_0
  have hr : r.val < 128 := r.isLt
  have hp0 : n / 32 < 2 := by clear hb hi hj; omega
  have hp1 : n / 8 % 4 * 128 + r.val < 512 := by clear hb hi hj; omega
  have hp2 : n % 8 < 8 := by clear hb hi hj; omega
  obtain rfl : b = ⟨n / 32, hp0⟩ := Fin.ext hb
  obtain rfl : i = ⟨n / 8 % 4 * 128 + r.val, hp1⟩ := Fin.ext hi
  obtain rfl : jb = ⟨n % 8, hp2⟩ := Fin.ext hj
  exact stepN_eq m c ⟨n, hn⟩ r k

/-- What a flushing point writes back is its block of the specification's result. -/
theorem flushed9_eq (c : Dev nD) (t : Fin cfg0.N) (hf : (cfg0.win 9).flush t = true) :
    (dats (F := Ideal) m 0 c).flushed 9 t = ((cfg0.win 9).blk t).view.read (Elt Ideal) (GKm m c) := by
  have h7 : t.val % 8 = 7 := (flush0_9 t).mp hf
  have hN : cfg0.N = 64 := N_0
  have htl : t.val < 64 := lt_of_lt_of_eq t.isLt hN
  obtain ⟨e0, e1, e2⟩ := idx9 t
  show (cfg0.win 9).cut (grid0.coords t) ((dats (F := Ideal) m 0 c).after 9 t) = _
  rw [after0_9]
  refine funext fun (y : S1x128x256.Idx) => ?_
  obtain ⟨r, k, rfl⟩ : ∃ (r : Fin 128) (k : Fin 256), y = ix3 (0 : Fin 1) r k :=
    ⟨y 1, y 2, by
      funext a
      match a with
      | ⟨0, _⟩ => exact Fin.ext (by have h0 : (y 0).val < 1 := (y 0).isLt; show (y 0).val = 0; omega)
      | ⟨1, _⟩ => rfl
      | ⟨2, _⟩ => rfl⟩
  show (outsAt0 (F := Ideal) m c t.val t.isLt).1 (ix3 (0 : Fin 1) r k)
    = GKm m c (((cfg0.win 9).blk t).view.emb (ix3 (0 : Fin 1) r k))
  have hemb : ((cfg0.win 9).blk t).view.emb (ix3 (0 : Fin 1) r k)
      = ix3 (⟨t.val / 32, by omega⟩ : Fin 2) (⟨t.val / 8 % 4 * 128 + r.val, by omega⟩ : Fin 512) k := by
    funext a; apply Fin.ext
    match a with
    | ⟨0, _⟩ => show win0_9.index t (0 : Fin 3) * 1 + 1 * 0 = t.val / 32; omega
    | ⟨1, _⟩ => show win0_9.index t (1 : Fin 3) * 128 + 1 * r.val = t.val / 8 % 4 * 128 + r.val; omega
    | ⟨2, _⟩ => show win0_9.index t (2 : Fin 3) * 256 + 1 * k.val = k.val; omega
  rw [hemb]
  rw [result_at m c t h7 r k, Finset.sum_range]
  show _ = outK (fam3 (m ((c : Thread nD τ).loc main_arg0))) (fam4 (m ((c : Thread nD τ).loc main_arg1))) (fam2 (m ((c : Thread nD τ).loc main_arg2))) (fam1 (m ((c : Thread nD τ).loc main_arg3))) (fam1 (m ((c : Thread nD τ).loc main_arg4))) (fam1 (m ((c : Thread nD τ).loc main_arg5))) (fam1 (m ((c : Thread nD τ).loc main_arg6))) (fam2 (m ((c : Thread nD τ).loc main_arg7))) (fam1 (m ((c : Thread nD τ).loc main_arg8))) (fam1 (m ((c : Thread nD τ).loc main_arg9))) (fam1 (m ((c : Thread nD τ).loc main_arg10))) (fam1 (m ((c : Thread nD τ).loc main_arg11))) (⟨t.val / 32, by omega⟩ : Fin 2) (⟨t.val / 8 % 4 * 128 + r.val, by omega⟩ : Fin 512) k
  unfold outK
  refine Finset.sum_congr rfl fun jb _ => ?_
  have hjb : jb.val < 8 := jb.isLt
  exact stepN_at m c (t.val - 7 + jb.val) (by omega) _ _ jb r k (by show t.val / 32 = (t.val - 7 + jb.val) / 32; omega)
    (by show t.val / 8 % 4 * 128 + r.val = (t.val - 7 + jb.val) / 8 % 4 * 128 + r.val; omega) (by omega)

/-- An index of the array is in the block of the point at position t iff each coordinate is in the block's range. -/
theorem mem_blk9 (t : Fin cfg0.N) (i : S2x512x256.Idx) :
    i ∈ ((cfg0.win 9).blk t).view.set ↔ ∀ a : Fin 3, win0_9.index t a * S1x128x256.size a ≤ (i a).val ∧ (i a).val < win0_9.index t a * S1x128x256.size a + S1x128x256.size a := by
  show i ∈ ((View.whole main_v30).slice (win0_9.rect t)).set ↔ _
  rw [View.set_slice_whole, Rect.mem_set_unit]
  exact Iff.rfl

/-- Every index of the array is in the block some flushing point writes back: the last point of its row block. -/
theorem cover9 (i : S2x512x256.Idx) :
    ∃ t : Fin cfg0.N, (cfg0.win 9).flush t = true ∧ i ∈ ((cfg0.win 9).blk t).view.set := by
  have hN : cfg0.N = 64 := N_0
  have hi0 : (i 0).val < 2 := (i 0).isLt
  have hi1 : (i 1).val < 512 := (i 1).isLt
  have hi2 : (i 2).val < 256 := (i 2).isLt
  let t : Fin cfg0.N := ⟨(i 0).val * 32 + (i 1).val / 128 * 8 + 7, by omega⟩
  have htv : t.val = (i 0).val * 32 + (i 1).val / 128 * 8 + 7 := rfl
  obtain ⟨e0, e1, e2⟩ := idx9 t
  refine ⟨t, (flush0_9 t).mpr (by omega), ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 128 ≤ (i 1).val ∧ (i 1).val < win0_9.index t (1 : Fin 3) * 128 + 128; omega
  | ⟨2, _⟩ => show win0_9.index t (2 : Fin 3) * 256 ≤ (i 2).val ∧ (i 2).val < win0_9.index t (2 : Fin 3) * 256 + 256; omega

/-- The result's array after the run is the specification's `GK` of the twelve arguments. -/
theorem final9 (c : Dev nD) : (dats (F := Ideal) m 0 c).arrAt 9 cfg0.N = GKm m c :=
  (dats (F := Ideal) m 0 c).arrAt_eq_of_cover 9 (GKm m c) (fun t hf => flushed9_eq m c t hf) (cover9)

/-- The run, read: the result at `GK` of the arguments, the arguments unchanged. -/
theorem run_GK (ρ : Dev nD → PrngReg) : θ_run (defs (F := Ideal)) (onTc (τ := τ) (main (F := Ideal))) ⟨m, fun _ => 0, ρ⟩ (fun r => ∀ c : Dev nD,
      r.2.mem ((c.tc : Thread nD τ).loc main_v30) = GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (final9 m c), (h c).2⟩) (run_named (F := Ideal) m ρ)

end Cert.KernelIdeal.Hand

end
-- ==== Proof.RefRead.lean ====
import proofs.«400706_j54133767798955_3_alg».proof.Proof.Gen.ReferenceIdeal.Run
import proofs.«400706_j54133767798955_3_alg».proof.Proof.Gen.ReferenceIdeal.Read
import proofs.«400706_j54133767798955_3_alg».proof.Proof.Spec

/-! The reference's result, read index by index: it is `Spec.GR` of the twelve arguments. -/

noncomputable section

namespace Cert.ReferenceIdeal.RefValue

open Idealize.ShloMosaic Idealize.ShloMosaic.TcCoe Idealize.SL.Sem
open Cert.ReferenceIdeal Cert.ReferenceIdeal.Gen Cert.ReferenceIdeal.Value
open Idealize.ShloMosaic.ValueIdx

/-! ## The concatenated feature vector

Along the last axis the three pieces have extents 128, 128 and 16. A coordinate below 128 falls in the first piece,
one below 256 in the second at the coordinate less 128, any other in the third at the coordinate less 256. -/

theorem v4_lo (x0 : (⟨S2x512x128, .f32⟩ : BufTy).Contents (Elt Ideal)) (x1 : (⟨S2x512x512x16, .f32⟩ : BufTy).Contents (Elt Ideal))
    (b : Fin 2) (i j : Fin 512) (d : Fin 272) (h : d.val < 128) :
    Read.val_main_v4 (F := Ideal) x0 x1 (ix4 b i j d) = Read.val_main_v1 (F := Ideal) x0 (ix4 b i j ⟨d.val, h⟩) := by
  unfold Read.val_main_v4
  generalize Read.val_main_v1 (F := Ideal) x0 = y1
  generalize Read.val_main_v3 (F := Ideal) x0 = y3
  refine concatenate_apply_piece (t := S2x512x512x272) 3 [⟨S2x512x512x128, y1⟩, ⟨S2x512x512x128, y3⟩, ⟨S2x512x512x16, x1⟩]
    concatenates_S2x512x512x128_S2x512x512x128_S2x512x512x16_S2x512x512x272_d3
    (ix4 b i j d) 0 (Nat.zero_lt_succ _) S2x512x512x128 y1 rfl rfl 0 rfl (ix4 b i j ⟨d.val, h⟩) ?_ ?_
  · intro a ha
    match a, ha with
    | ⟨0, _⟩, _ => rfl
    | ⟨1, _⟩, _ => rfl
    | ⟨2, _⟩, _ => rfl
    | ⟨3, _⟩, ha => exact absurd rfl ha
  · exact Nat.zero_add _

theorem v4_mid (x0 : (⟨S2x512x128, .f32⟩ : BufTy).Contents (Elt Ideal)) (x1 : (⟨S2x512x512x16, .f32⟩ : BufTy).Contents (Elt Ideal))
    (b : Fin 2) (i j : Fin 512) (d : Fin 272) (h1 : ¬d.val < 128) (h2 : d.val < 256) :
    Read.val_main_v4 (F := Ideal) x0 x1 (ix4 b i j d)
      = Read.val_main_v3 (F := Ideal) x0 (ix4 b i j ⟨d.val - 128, by omega⟩) := by
  unfold Read.val_main_v4
  generalize Read.val_main_v1 (F := Ideal) x0 = y1
  generalize Read.val_main_v3 (F := Ideal) x0 = y3
  refine concatenate_apply_piece (t := S2x512x512x272) 3 [⟨S2x512x512x128, y1⟩, ⟨S2x512x512x128, y3⟩, ⟨S2x512x512x16, x1⟩]
    concatenates_S2x512x512x128_S2x512x512x128_S2x512x512x16_S2x512x512x272_d3
    (ix4 b i j d) 1 (Nat.succ_lt_succ (Nat.zero_lt_succ _)) S2x512x512x128 y3 rfl rfl 128 rfl
    (ix4 b i j ⟨d.val - 128, by omega⟩) ?_ ?_
  · intro a ha
    match a, ha with
    | ⟨0, _⟩, _ => rfl
    | ⟨1, _⟩, _ => rfl
    | ⟨2, _⟩, _ => rfl
    | ⟨3, _⟩, ha => exact absurd rfl ha
  · show 128 + (d.val - 128) = d.val
    omega

theorem v4_hi (x0 : (⟨S2x512x128, .f32⟩ : BufTy).Contents (Elt Ideal)) (x1 : (⟨S2x512x512x16, .f32⟩ : BufTy).Contents (Elt Ideal))
    (b : Fin 2) (i j : Fin 512) (d : Fin 272) (h2 : ¬d.val < 256) :
    Read.val_main_v4 (F := Ideal) x0 x1 (ix4 b i j d) = x1 (ix4 b i j ⟨d.val - 256, by omega⟩) := by
  unfold Read.val_main_v4
  generalize Read.val_main_v1 (F := Ideal) x0 = y1
  generalize Read.val_main_v3 (F := Ideal) x0 = y3
  refine concatenate_apply_piece (t := S2x512x512x272) 3 [⟨S2x512x512x128, y1⟩, ⟨S2x512x512x128, y3⟩, ⟨S2x512x512x16, x1⟩]
    concatenates_S2x512x512x128_S2x512x512x128_S2x512x512x16_S2x512x512x272_d3
    (ix4 b i j d) 2 (Nat.succ_lt_succ (Nat.succ_lt_succ (Nat.zero_lt_succ _))) S2x512x512x16 x1 rfl rfl 256 rfl
    (ix4 b i j ⟨d.val - 256, by omega⟩) ?_ ?_
  · intro a ha
    match a, ha with
    | ⟨0, _⟩, _ => rfl
    | ⟨1, _⟩, _ => rfl
    | ⟨2, _⟩, _ => rfl
    | ⟨3, _⟩, ha => exact absurd rfl ha
  · show 256 + (d.val - 256) = d.val
    omega

/-- The concatenation at edge (i, j), coordinate d: x at node i, x at node j, or the edge's own features. -/
theorem feat_eq (x0 : (⟨S2x512x128, .f32⟩ : BufTy).Contents (Elt Ideal)) (x1 : (⟨S2x512x512x16, .f32⟩ : BufTy).Contents (Elt Ideal))
    (b : Fin 2) (i j : Fin 512) (d : Fin 272) :
    Read.val_main_v4 (F := Ideal) x0 x1 (ix4 b i j d) = Cert.Spec.feat (Cert.Spec.fam3 x0) (Cert.Spec.fam4 x1) b i j d := by
  unfold Cert.Spec.feat
  by_cases h1 : d.val < 128
  · rw [dif_pos h1, v4_lo x0 x1 b i j d h1, Read.val_main_v1_apply, Read.val_main_v0_apply]
    exact congrArg x0 (funext fun a => Fin.ext (by match a with | ⟨0, _⟩ => rfl | ⟨1, _⟩ => rfl | ⟨2, _⟩ => rfl))
  · by_cases h2 : d.val < 256
    · rw [dif_neg h1, dif_pos h2, v4_mid x0 x1 b i j d h1 h2, Read.val_main_v3_apply, Read.val_main_v2_apply]
      exact congrArg x0 (funext fun a => Fin.ext (by match a with | ⟨0, _⟩ => rfl | ⟨1, _⟩ => rfl | ⟨2, _⟩ => rfl))
    · rw [dif_neg h1, dif_neg h2, v4_hi x0 x1 b i j d h2]
      rfl

/-! ## The per-channel vectors, broadcast over batch and edge -/

theorem mean1_eq (x5 : (⟨S256, .f32⟩ : BufTy).Contents (Elt Ideal)) (b : Fin 2) (i j : Fin 512) (h : Fin 256) :
    Read.val_main_v7 (F := Ideal) x5 (ix4 b i j h) = Cert.Spec.fam1 x5 h := by
  rw [Read.val_main_v7_apply, Read.val_main_v6_apply]
  exact congrArg x5 (funext fun a => Fin.ext (by match a with | ⟨0, _⟩ => rfl))

theorem shift1_eq (x4 : (⟨S256, .f32⟩ : BufTy).Contents (Elt Ideal)) (b : Fin 2) (i j : Fin 512) (h : Fin 256) :
    Read.val_main_v17 (F := Ideal) x4 (ix4 b i j h) = Cert.Spec.fam1 x4 h := by
  rw [Read.val_main_v17_apply, Read.val_main_v16_apply]
  exact congrArg x4 (funext fun a => Fin.ext (by match a with | ⟨0, _⟩ => rfl))

theorem mean2_eq (x10 : (⟨S256, .f32⟩ : BufTy).Contents (Elt Ideal)) (b : Fin 2) (i j : Fin 512) (h : Fin 256) :
    Read.val_main_v22 (F := Ideal) x10 (ix4 b i j h) = Cert.Spec.fam1 x10 h := by
  rw [Read.val_main_v22_apply, Read.val_main_v21_apply]
  exact congrArg x10 (funext fun a => Fin.ext (by match a with | ⟨0, _⟩ => rfl))

theorem shift2_eq (x9 : (⟨S256, .f32⟩ : BufTy).Contents (Elt Ideal)) (b : Fin 2) (i j : Fin 512) (h : Fin 256) :
    Read.val_main_v32 (F := Ideal) x9 (ix4 b i j h) = Cert.Spec.fam1 x9 h := by
  rw [Read.val_main_v32_apply, Read.val_main_v31_apply]
  exact congrArg x9 (funext fun a => Fin.ext (by match a with | ⟨0, _⟩ => rfl))

/-! ## The per-channel scales: gain times the reciprocal root of (variance + floor) -/

theorem scale1_eq (x3 x6 : (⟨S256, .f32⟩ : BufTy).Contents (Elt Ideal)) (b : Fin 2) (i j : Fin 512) (h : Fin 256) :
    Read.val_main_v14 (F := Ideal) x3 x6 (ix4 b i j h) = Cert.Spec.inv (Cert.Spec.fam1 x3) (Cert.Spec.fam1 x6) h := by
  rw [Read.val_main_v14_apply, Read.val_main_v13_apply, Read.val_main_v12_apply, Read.val_main_v11_apply,
    Read.val_main_v10_apply, Read.val_main_v9_apply, Read.val_main_cst_apply]
  have e : Read.idx_main_v13 (Read.idx_main_v14 (ix4 b i j h)) = ix1 h :=
    funext fun a => Fin.ext (by match a with | ⟨0, _⟩ => rfl)
  rw [e]
  rfl

theorem scale2_eq (x8 x11 : (⟨S256, .f32⟩ : BufTy).Contents (Elt Ideal)) (b : Fin 2) (i j : Fin 512) (h : Fin 256) :
    Read.val_main_v29 (F := Ideal) x8 x11 (ix4 b i j h) = Cert.Spec.inv (Cert.Spec.fam1 x8) (Cert.Spec.fam1 x11) h := by
  rw [Read.val_main_v29_apply, Read.val_main_v28_apply, Read.val_main_v27_apply, Read.val_main_v26_apply,
    Read.val_main_v25_apply, Read.val_main_v24_apply, Read.val_main_cst_0_apply]
  have e : Read.idx_main_v28 (Read.idx_main_v29 (ix4 b i j h)) = ix1 h :=
    funext fun a => Fin.ext (by match a with | ⟨0, _⟩ => rfl)
  rw [e]
  rfl

/-! ## The hidden channel, the message, the sum over the edges of a node -/

theorem hid_eq (x0 : (⟨S2x512x128, .f32⟩ : BufTy).Contents (Elt Ideal)) (x1 : (⟨S2x512x512x16, .f32⟩ : BufTy).Contents (Elt Ideal)) (x2 : (⟨S272x256, .f32⟩ : BufTy).Contents (Elt Ideal)) (x3 x4 x5 x6 : (⟨S256, .f32⟩ : BufTy).Contents (Elt Ideal))
    (b : Fin 2) (i j : Fin 512) (h : Fin 256) :
    Read.val_main_v19 (F := Ideal) x0 x1 x2 x3 x4 x5 x6 (ix4 b i j h)
      = Cert.Spec.hidR (Cert.Spec.fam3 x0) (Cert.Spec.fam4 x1) (Cert.Spec.fam2 x2) (Cert.Spec.fam1 x3) (Cert.Spec.fam1 x4)
          (Cert.Spec.fam1 x5) (Cert.Spec.fam1 x6) b i j h := by
  rw [Read.val_main_v19_apply, Read.val_main_v18_apply, Read.val_main_v15_apply, Read.val_main_v8_apply,
    Read.val_main_v5_apply, mean1_eq, scale1_eq, shift1_eq, Read.val_main_call0_v0_apply, Read.val_main_call0_cst_apply]
  have el : ∀ k : Fin 272, Read.lidx_main_v5 (ix4 b i j h) k = ix4 b i j k := fun k =>
    funext fun a => Fin.ext (by match a with | ⟨0, _⟩ => rfl | ⟨1, _⟩ => rfl | ⟨2, _⟩ => rfl | ⟨3, _⟩ => rfl)
  have er : ∀ k : Fin 272, Read.ridx_main_v5 (ix4 b i j h) k = ix2 k h := fun k =>
    funext fun a => Fin.ext (by match a with | ⟨0, _⟩ => rfl | ⟨1, _⟩ => rfl)
  simp only [el, er, feat_eq]
  rw [Ideal.ofBits_def, Ideal.ofBits_zero_f32]
  rfl

theorem edge_eq (x0 : (⟨S2x512x128, .f32⟩ : BufTy).Contents (Elt Ideal)) (x1 : (⟨S2x512x512x16, .f32⟩ : BufTy).Contents (Elt Ideal)) (x2 : (⟨S272x256, .f32⟩ : BufTy).Contents (Elt Ideal)) (x3 x4 x5 x6 : (⟨S256, .f32⟩ : BufTy).Contents (Elt Ideal)) (x7 : (⟨S256x256, .f32⟩ : BufTy).Contents (Elt Ideal)) (x8 x9 x10 x11 : (⟨S256, .f32⟩ : BufTy).Contents (Elt Ideal))
    (b : Fin 2) (i j : Fin 512) (k : Fin 256) :
    Read.val_main_v34 (F := Ideal) x0 x1 x2 x3 x4 x5 x6 x7 x8 x9 x10 x11 (ix4 b i j k)
      = Cert.Spec.edgeR (Cert.Spec.fam3 x0) (Cert.Spec.fam4 x1) (Cert.Spec.fam2 x2) (Cert.Spec.fam1 x3) (Cert.Spec.fam1 x4)
          (Cert.Spec.fam1 x5) (Cert.Spec.fam1 x6) (Cert.Spec.fam2 x7) (Cert.Spec.fam1 x8) (Cert.Spec.fam1 x9)
          (Cert.Spec.fam1 x10) (Cert.Spec.fam1 x11) b i j k := by
  rw [Read.val_main_v34_apply, Read.val_main_v33_apply, Read.val_main_v30_apply, Read.val_main_v23_apply,
    Read.val_main_v20_apply, mean2_eq, scale2_eq, shift2_eq]
  have el : ∀ h : Fin 256, Read.lidx_main_v20 (ix4 b i j k) h = ix4 b i j h := fun h =>
    funext fun a => Fin.ext (by match a with | ⟨0, _⟩ => rfl | ⟨1, _⟩ => rfl | ⟨2, _⟩ => rfl | ⟨3, _⟩ => rfl)
  have er : ∀ h : Fin 256, Read.ridx_main_v20 (ix4 b i j k) h = ix2 h k := fun h =>
    funext fun a => Fin.ext (by match a with | ⟨0, _⟩ => rfl | ⟨1, _⟩ => rfl)
  simp only [el, er, hid_eq]
  rfl

/-- The reference's result array is `Spec.GR` of its arguments. -/
theorem out_eq (x0 : (⟨S2x512x128, .f32⟩ : BufTy).Contents (Elt Ideal)) (x1 : (⟨S2x512x512x16, .f32⟩ : BufTy).Contents (Elt Ideal)) (x2 : (⟨S272x256, .f32⟩ : BufTy).Contents (Elt Ideal)) (x3 x4 x5 x6 : (⟨S256, .f32⟩ : BufTy).Contents (Elt Ideal)) (x7 : (⟨S256x256, .f32⟩ : BufTy).Contents (Elt Ideal)) (x8 x9 x10 x11 : (⟨S256, .f32⟩ : BufTy).Contents (Elt Ideal)) :
    Read.val_main_v35 (F := Ideal) x0 x1 x2 x3 x4 x5 x6 x7 x8 x9 x10 x11
      = Cert.Spec.GR x0 x1 x2 x3 x4 x5 x6 x7 x8 x9 x10 x11 := by
  funext i
  obtain ⟨b, r, c, rfl⟩ : ∃ (b : Fin 2) (r : Fin 512) (c : Fin 256), i = ix3 b r c := ⟨i 0, i 1, i 2, eq_ix3 i⟩
  rw [Read.val_main_v35_apply, Read.val_main_cst_1_apply]
  have e : ∀ k : Fin 512, Read.idx_main_v35 (ix3 b r c) k = ix4 b r k c := fun k =>
    funext fun a => Fin.ext (by match a with | ⟨0, _⟩ => rfl | ⟨1, _⟩ => rfl | ⟨2, _⟩ => rfl | ⟨3, _⟩ => rfl)
  simp only [e, edge_eq]
  rw [Ideal.ofBits_def, Ideal.ofBits_zero_f32, zero_add]
  rfl

/-- Every weakly fair execution of the reference terminates with its result at `Spec.GR` of the arguments, the
    arguments unchanged. -/
theorem run_GR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = Cert.Spec.GR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono
    (fun _ h c => ⟨(h c).1.trans ((Read.val_main_v35_eq (F := Ideal) _ _ _ _ _ _ _ _ _ _ _ _).trans (out_eq _ _ _ _ _ _ _ _ _ _ _ _)), (h c).2⟩)
    (Value.run (F := Ideal) m ρ)

end Cert.ReferenceIdeal.RefValue

end
-- ==== Proof.Algebra.lean ====
import proofs.«400706_j54133767798955_3_alg».proof.Proof.Spec
import Mathlib.Algebra.BigOperators.Fin
import Mathlib.Data.Fintype.BigOperators
import Mathlib.Logic.Equiv.Fin.Basic
import Mathlib.Data.EReal.Operations
import Mathlib.Tactic.Ring

/-! The two arrangements of `Spec` agree where every input is a real number and both variances are non-negative.

Distributivity fails at the infinities of the extended reals, so every quantity is first shown to be a real
number: the variance floor is a positive real, hence each scale `inv g v h` is a real; then the law
`Σ a·(w·s) + (b − m·s) = ((Σ a·w) − m)·s + b` is proved among reals and carried back. The first layer is
this law over the 272 features, once the sum over them is cut into its three parts; the second layer is
this law over the 256 hidden channels; and the sum over 512 nodes is the sum over 8 blocks of 64. -/

noncomputable section

namespace Cert.Spec

open Idealize.ShloMosaic

/-! ## Reals inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The positive part of a real is a real. -/
theorem max_zero_real {y : EReal} (hy : ∃ r : ℝ, y = (r : EReal)) : ∃ r : ℝ, max y 0 = (r : EReal) := by
  obtain ⟨r, rfl⟩ := hy
  exact ⟨max r 0, (EReal.coe_strictMono.monotone.map_max (a := r) (b := 0)).symm⟩

/-- The variance floor is a positive real. -/
theorem eps_real : ∃ e : ℝ, 0 < e ∧ eps = (e : EReal) := by
  unfold eps
  simp [Ideal.ofBits, Ideal.ieee, -EReal.coe_mul]

/-- A scale is a real: the variance plus the floor is a positive real, whose reciprocal root is a real. -/
theorem inv_real (g v : Fin 256 → EReal) (hg : ∀ h, ∃ r : ℝ, g h = (r : EReal))
    (hv : ∀ h, ∃ r : ℝ, v h = (r : EReal)) (hv0 : ∀ h, (0 : EReal) ≤ v h) (h : Fin 256) :
    ∃ s : ℝ, inv g v h = (s : EReal) := by
  obtain ⟨e, he, hE⟩ := eps_real
  obtain ⟨gr, hgr⟩ := hg h
  obtain ⟨vr, hvr⟩ := hv h
  have h0 : 0 ≤ vr := by
    have h1 := hv0 h
    rw [hvr] at h1
    exact EReal.coe_nonneg.mp h1
  have hpos : 0 < vr + e := add_pos_of_nonneg_of_pos h0 he
  refine ⟨gr * (Real.sqrt (vr + e))⁻¹, ?_⟩
  unfold inv
  rw [hgr, hvr, hE, ← EReal.coe_add, Ideal.rsqrt_coe, if_neg (not_lt.mpr hpos.le), if_neg hpos.ne',
    ← EReal.coe_mul]

/-! ## The law of one layer -/

/-- Scaling the columns and adding one combined shift is normalising after the linear map, among reals. -/
theorem affine_fold {n : ℕ} (a w : Fin n → EReal) (m s b : EReal)
    (ha : ∀ i, ∃ r : ℝ, a i = (r : EReal)) (hw : ∀ i, ∃ r : ℝ, w i = (r : EReal))
    (hm : ∃ r : ℝ, m = (r : EReal)) (hs : ∃ r : ℝ, s = (r : EReal)) (hb : ∃ r : ℝ, b = (r : EReal)) :
    (∑ i, a i * (w i * s)) + (b - m * s) = ((∑ i, a i * w i) - m) * s + b := by
  choose ar har using ha
  choose wr hwr using hw
  obtain ⟨mr, rfl⟩ := hm
  obtain ⟨sr, rfl⟩ := hs
  obtain ⟨br, rfl⟩ := hb
  simp only [har, hwr, ← EReal.coe_mul, ← coe_sum, ← EReal.coe_sub, ← EReal.coe_add]
  rw [EReal.coe_eq_coe_iff, sub_mul, Finset.sum_mul]
  simp only [mul_assoc]
  ring

/-- The normalised value of one layer is a real. -/
theorem affine_real {n : ℕ} (a w : Fin n → EReal) (m s b : EReal)
    (ha : ∀ i, ∃ r : ℝ, a i = (r : EReal)) (hw : ∀ i, ∃ r : ℝ, w i = (r : EReal))
    (hm : ∃ r : ℝ, m = (r : EReal)) (hs : ∃ r : ℝ, s = (r : EReal)) (hb : ∃ r : ℝ, b = (r : EReal)) :
    ∃ r : ℝ, ((∑ i, a i * w i) - m) * s + b = (r : EReal) := by
  choose ar har using ha
  choose wr hwr using hw
  obtain ⟨mr, rfl⟩ := hm
  obtain ⟨sr, rfl⟩ := hs
  obtain ⟨br, rfl⟩ := hb
  refine ⟨((∑ i, ar i * wr i) - mr) * sr + br, ?_⟩
  simp only [har, hwr, ← EReal.coe_mul, ← coe_sum, ← EReal.coe_sub, ← EReal.coe_add]

/-! ## Cutting the sums -/

/-- A sum over 272 = 128 + 128 + 16 indices is the sum of its three parts. -/
theorem sum_split272 {M : Type*} [AddCommMonoid M] (F : Fin 272 → M) :
    ∑ d, F d = ((∑ c : Fin 128, F ⟨c.val, by omega⟩) + ∑ c : Fin 128, F ⟨128 + c.val, by omega⟩)
      + ∑ c : Fin 16, F ⟨256 + c.val, by omega⟩ := by
  have h1 := Fin.sum_univ_add (a := 128 + 128) (b := 16) F
  have h2 := Fin.sum_univ_add (a := 128) (b := 128) (fun c => F (Fin.castAdd 16 c))
  rw [h1, h2]
  rfl

/-- A sum over 512 nodes is the sum over 8 blocks of 64. -/
theorem sum_blocks {M : Type*} [AddCommMonoid M] (E : Fin 512 → M) :
    ∑ jb : Fin 8, ∑ jj : Fin 64, E (jOf jb jj) = ∑ j : Fin 512, E j := by
  have h := Equiv.sum_comp (finProdFinEquiv (m := 8) (n := 64)) E
  rw [Fintype.sum_prod_type] at h
  rw [← h]
  refine Finset.sum_congr rfl fun jb _ => Finset.sum_congr rfl fun jj _ => ?_
  congr 1
  refine Fin.ext ?_
  show jb.val * 64 + jj.val = jj.val + 64 * jb.val
  omega

section
variable (x : Fin 2 → Fin 512 → Fin 128 → EReal) (adj : Fin 2 → Fin 512 → Fin 512 → Fin 16 → EReal)
  (W1 : Fin 272 → Fin 256 → EReal) (g1 b1 m1 v1 : Fin 256 → EReal)
  (W2 : Fin 256 → Fin 256 → EReal) (g2 b2 m2 v2 : Fin 256 → EReal)

/-! ## The feature vector, part by part -/

theorem feat_lo (b : Fin 2) (i j : Fin 512) (c : Fin 128) :
    feat x adj b i j ⟨c.val, by omega⟩ = x b i c := by
  unfold feat
  split_ifs with h1 h2
  · rfl
  · exact absurd c.isLt h1
  · exact absurd c.isLt h1

theorem feat_mid (b : Fin 2) (i j : Fin 512) (c : Fin 128) :
    feat x adj b i j ⟨128 + c.val, by omega⟩ = x b j c := by
  unfold feat
  split_ifs with h1 h2
  · have h1' : 128 + c.val < 128 := h1
    omega
  · congr 1
    refine Fin.ext ?_
    show 128 + c.val - 128 = c.val
    omega
  · have h2' : ¬ (128 + c.val < 256) := h2
    omega

theorem feat_hi (b : Fin 2) (i j : Fin 512) (c : Fin 16) :
    feat x adj b i j ⟨256 + c.val, by omega⟩ = adj b i j c := by
  unfold feat
  split_ifs with h1 h2
  · have h1' : 256 + c.val < 128 := h1
    omega
  · have h2' : 256 + c.val < 256 := h2
    omega
  · congr 1
    refine Fin.ext ?_
    show 256 + c.val - 256 = c.val
    omega

/-- Every feature is a real. -/
theorem feat_real (hx : ∀ b i c, ∃ r : ℝ, x b i c = (r : EReal))
    (hadj : ∀ b i j c, ∃ r : ℝ, adj b i j c = (r : EReal)) (b : Fin 2) (i j : Fin 512) (d : Fin 272) :
    ∃ r : ℝ, feat x adj b i j d = (r : EReal) := by
  unfold feat
  split_ifs
  · exact hx _ _ _
  · exact hx _ _ _
  · exact hadj _ _ _ _

/-! ## The first layer -/

theorem hidK_eq_hidR (hx : ∀ b i c, ∃ r : ℝ, x b i c = (r : EReal))
    (hadj : ∀ b i j c, ∃ r : ℝ, adj b i j c = (r : EReal))
    (hW1 : ∀ d h, ∃ r : ℝ, W1 d h = (r : EReal)) (hg1 : ∀ h, ∃ r : ℝ, g1 h = (r : EReal))
    (hb1 : ∀ h, ∃ r : ℝ, b1 h = (r : EReal)) (hm1 : ∀ h, ∃ r : ℝ, m1 h = (r : EReal))
    (hv1 : ∀ h, ∃ r : ℝ, v1 h = (r : EReal)) (hv1n : ∀ h, (0 : EReal) ≤ v1 h)
    (b : Fin 2) (i j : Fin 512) (h : Fin 256) :
    hidK x adj W1 g1 b1 m1 v1 b i j h = hidR x adj W1 g1 b1 m1 v1 b i j h := by
  unfold hidK hidR
  congr 1
  refine Eq.trans ?_ (affine_fold (fun d => feat x adj b i j d) (fun d => W1 d h) (m1 h) (inv g1 v1 h) (b1 h)
    (feat_real x adj hx hadj b i j) (fun d => hW1 d h) (hm1 h) (inv_real g1 v1 hg1 hv1 hv1n h) (hb1 h))
  rw [sum_split272]
  unfold adjK leftK rightK wL wR wA shift1
  simp only [feat_lo, feat_mid, feat_hi]
  ac_rfl

/-- A hidden channel is a real. -/
theorem hidR_real (hx : ∀ b i c, ∃ r : ℝ, x b i c = (r : EReal))
    (hadj : ∀ b i j c, ∃ r : ℝ, adj b i j c = (r : EReal))
    (hW1 : ∀ d h, ∃ r : ℝ, W1 d h = (r : EReal)) (hg1 : ∀ h, ∃ r : ℝ, g1 h = (r : EReal))
    (hb1 : ∀ h, ∃ r : ℝ, b1 h = (r : EReal)) (hm1 : ∀ h, ∃ r : ℝ, m1 h = (r : EReal))
    (hv1 : ∀ h, ∃ r : ℝ, v1 h = (r : EReal)) (hv1n : ∀ h, (0 : EReal) ≤ v1 h)
    (b : Fin 2) (i j : Fin 512) (h : Fin 256) :
    ∃ r : ℝ, hidR x adj W1 g1 b1 m1 v1 b i j h = (r : EReal) := by
  unfold hidR
  exact max_zero_real (affine_real (fun d => feat x adj b i j d) (fun d => W1 d h) (m1 h) (inv g1 v1 h) (b1 h)
    (feat_real x adj hx hadj b i j) (fun d => hW1 d h) (hm1 h) (inv_real g1 v1 hg1 hv1 hv1n h) (hb1 h))

/-! ## The second layer and the sum over the nodes -/

theorem edgeK_eq_edgeR (hx : ∀ b i c, ∃ r : ℝ, x b i c = (r : EReal))
    (hadj : ∀ b i j c, ∃ r : ℝ, adj b i j c = (r : EReal))
    (hW1 : ∀ d h, ∃ r : ℝ, W1 d h = (r : EReal)) (hg1 : ∀ h, ∃ r : ℝ, g1 h = (r : EReal))
    (hb1 : ∀ h, ∃ r : ℝ, b1 h = (r : EReal)) (hm1 : ∀ h, ∃ r : ℝ, m1 h = (r : EReal))
    (hv1 : ∀ h, ∃ r : ℝ, v1 h = (r : EReal))
    (hW2 : ∀ h k, ∃ r : ℝ, W2 h k = (r : EReal)) (hg2 : ∀ h, ∃ r : ℝ, g2 h = (r : EReal))
    (hb2 : ∀ h, ∃ r : ℝ, b2 h = (r : EReal)) (hm2 : ∀ h, ∃ r : ℝ, m2 h = (r : EReal))
    (hv2 : ∀ h, ∃ r : ℝ, v2 h = (r : EReal))
    (hv1n : ∀ h, (0 : EReal) ≤ v1 h) (hv2n : ∀ h, (0 : EReal) ≤ v2 h)
    (b : Fin 2) (i j : Fin 512) (k : Fin 256) :
    edgeK x adj W1 g1 b1 m1 v1 W2 g2 b2 m2 v2 b i j k = edgeR x adj W1 g1 b1 m1 v1 W2 g2 b2 m2 v2 b i j k := by
  unfold edgeK edgeR
  congr 1
  simp only [hidK_eq_hidR x adj W1 g1 b1 m1 v1 hx hadj hW1 hg1 hb1 hm1 hv1 hv1n]
  unfold w2s shift2
  exact affine_fold (fun h => hidR x adj W1 g1 b1 m1 v1 b i j h) (fun h => W2 h k) (m2 k) (inv g2 v2 k) (b2 k)
    (fun h => hidR_real x adj W1 g1 b1 m1 v1 hx hadj hW1 hg1 hb1 hm1 hv1 hv1n b i j h) (fun h => hW2 h k) (hm2 k)
    (inv_real g2 v2 hg2 hv2 hv2n k) (hb2 k)

theorem outK_eq_outR (hx : ∀ b i c, ∃ r : ℝ, x b i c = (r : EReal))
    (hadj : ∀ b i j c, ∃ r : ℝ, adj b i j c = (r : EReal))
    (hW1 : ∀ d h, ∃ r : ℝ, W1 d h = (r : EReal)) (hg1 : ∀ h, ∃ r : ℝ, g1 h = (r : EReal))
    (hb1 : ∀ h, ∃ r : ℝ, b1 h = (r : EReal)) (hm1 : ∀ h, ∃ r : ℝ, m1 h = (r : EReal))
    (hv1 : ∀ h, ∃ r : ℝ, v1 h = (r : EReal))
    (hW2 : ∀ h k, ∃ r : ℝ, W2 h k = (r : EReal)) (hg2 : ∀ h, ∃ r : ℝ, g2 h = (r : EReal))
    (hb2 : ∀ h, ∃ r : ℝ, b2 h = (r : EReal)) (hm2 : ∀ h, ∃ r : ℝ, m2 h = (r : EReal))
    (hv2 : ∀ h, ∃ r : ℝ, v2 h = (r : EReal))
    (hv1n : ∀ h, (0 : EReal) ≤ v1 h) (hv2n : ∀ h, (0 : EReal) ≤ v2 h)
    (b : Fin 2) (i : Fin 512) (k : Fin 256) :
    outK x adj W1 g1 b1 m1 v1 W2 g2 b2 m2 v2 b i k = outR x adj W1 g1 b1 m1 v1 W2 g2 b2 m2 v2 b i k := by
  unfold outK outR
  refine (sum_blocks (fun j => edgeK x adj W1 g1 b1 m1 v1 W2 g2 b2 m2 v2 b i j k)).trans ?_
  exact Finset.sum_congr rfl fun j _ =>
    edgeK_eq_edgeR x adj W1 g1 b1 m1 v1 W2 g2 b2 m2 v2 hx hadj hW1 hg1 hb1 hm1 hv1 hW2 hg2 hb2 hm2 hv2 hv1n hv2n b i j k

end

/-! ## The arrays -/

theorem GK_eq_GR (a0 : (⟨3, ![2, 512, 128]⟩ : Shape).Idx → EReal) (a1 : (⟨4, ![2, 512, 512, 16]⟩ : Shape).Idx → EReal) (a2 : (⟨2, ![272, 256]⟩ : Shape).Idx → EReal) (a3 : (⟨1, ![256]⟩ : Shape).Idx → EReal) (a4 : (⟨1, ![256]⟩ : Shape).Idx → EReal) (a5 : (⟨1, ![256]⟩ : Shape).Idx → EReal) (a6 : (⟨1, ![256]⟩ : Shape).Idx → EReal) (a7 : (⟨2, ![256, 256]⟩ : Shape).Idx → EReal) (a8 : (⟨1, ![256]⟩ : Shape).Idx → EReal) (a9 : (⟨1, ![256]⟩ : Shape).Idx → EReal) (a10 : (⟨1, ![256]⟩ : Shape).Idx → EReal) (a11 : (⟨1, ![256]⟩ : Shape).Idx → EReal)
    (f0 : ∀ i, ∃ r : ℝ, a0 i = (r : EReal)) (f1 : ∀ i, ∃ r : ℝ, a1 i = (r : EReal)) (f2 : ∀ i, ∃ r : ℝ, a2 i = (r : EReal)) (f3 : ∀ i, ∃ r : ℝ, a3 i = (r : EReal)) (f4 : ∀ i, ∃ r : ℝ, a4 i = (r : EReal)) (f5 : ∀ i, ∃ r : ℝ, a5 i = (r : EReal)) (f6 : ∀ i, ∃ r : ℝ, a6 i = (r : EReal)) (f7 : ∀ i, ∃ r : ℝ, a7 i = (r : EReal)) (f8 : ∀ i, ∃ r : ℝ, a8 i = (r : EReal)) (f9 : ∀ i, ∃ r : ℝ, a9 i = (r : EReal)) (f10 : ∀ i, ∃ r : ℝ, a10 i = (r : EReal)) (f11 : ∀ i, ∃ r : ℝ, a11 i = (r : EReal))
    (hv1 : ∀ i, (0 : EReal) ≤ a6 i) (hv2 : ∀ i, (0 : EReal) ≤ a11 i) :
    GK a0 a1 a2 a3 a4 a5 a6 a7 a8 a9 a10 a11 = GR a0 a1 a2 a3 a4 a5 a6 a7 a8 a9 a10 a11 := by
  funext idx
  unfold GK GR
  exact outK_eq_outR (fam3 a0) (fam4 a1) (fam2 a2) (fam1 a3) (fam1 a4) (fam1 a5) (fam1 a6) (fam2 a7)
    (fam1 a8) (fam1 a9) (fam1 a10) (fam1 a11)
    (fun _ _ _ => f0 _) (fun _ _ _ _ => f1 _) (fun _ _ => f2 _) (fun _ => f3 _) (fun _ => f4 _) (fun _ => f5 _)
    (fun _ => f6 _) (fun _ _ => f7 _) (fun _ => f8 _) (fun _ => f9 _) (fun _ => f10 _) (fun _ => f11 _)
    (fun _ => hv1 _) (fun _ => hv2 _) (idx 0) (idx 1) (idx 2)

end Cert.Spec

end
-- ==== Proof.PreDecode.lean ====
import proofs.«400706_j54133767798955_3_alg».proof.Pre_finite_inputs
import Idealize.ShloMosaic.Lib.ReduceAll
import Idealize.ShloMosaic.PureOps.Ideal
import Idealize.ShloMosaic.PureOps.Ideal.Laws

/-! What the stated precondition says of the twelve argument arrays: every entry is a real number, and the two
    variance vectors (arguments 6 and 11) are non-negative. -/

noncomputable section

namespace Cert.PreDecode

open Idealize.ShloMosaic Cert.Pre_finite_inputs

/-! ## One entry -/

/-- The pattern of `+∞` denotes the top of the extended reals. -/
theorem inf_eq_top : Ideal.ofBits .f32 0x7F800000#32 = (⊤ : EReal) := by
  simp [Ideal.ofBits, Ideal.ieee]

/-- An extended real whose absolute value `max x (-x)` is strictly below `+∞` is a real number: it is neither
    `⊤` (then `max x (-x) = ⊤`) nor `⊥` (then `-x = ⊤`). -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- A bit made from a Boolean is 1 exactly when the Boolean is true. -/
theorem ofBool_eq_one_iff (b : Bool) : BitVec.ofBool b = 1#1 ↔ b = true := by cases b <;> decide

/-- An extended real that compares `≥` against the pattern of `0.0` is non-negative. -/
theorem nonneg_of_ge (x : EReal)
    (h : Ideal.cmp .oge x (Ideal.ofBits .f32 0x00000000#32) = 1#1) : (0 : EReal) ≤ x := by
  rw [Ideal.ofBits_zero_f32] at h
  simpa [Ideal.cmp, ofBool_eq_one_iff] using h

/-! ## One array: `jnp.all` over every axis, read back at each index -/

/-- The one index of the rank-0 result. -/
abbrev i0 : S_.Idx := fun d => d.elim0

/-- `jnp.all(|a| < +∞)` being true makes every entry of `a` a real number, at any shape. -/
theorem real_of_all {s : Shape} {axes : List (Fin s.rank)}
    (hb : S_.BroadcastsInDim s (![] : Fin 0 → Fin s.rank)) (hr : s.ReducesTo axes S_) (h0 : 0 < S_.numel)
    (a : FVec Ideal s .f32)
    (e : Host.reduce IntOp.andi
          (cmpf .olt (Host.absf a) (broadcastInDim s ![] hb (constant (F := Ideal) S_ .f32 0x7F800000#32)))
          (constantI S_ 1 1#1) hr h0 i0 = 1#1) :
    ∀ i, ∃ r : ℝ, a i = (r : EReal) := fun i =>
  real_of_abs_lt (a i) (Host.reduce_andi_eq_one _ _ hr h0 i0 e i (funext fun d => d.elim0))

/-- `jnp.all(a ≥ 0)` being true makes every entry of `a` non-negative, at any shape. -/
theorem nonneg_of_all {s : Shape} {axes : List (Fin s.rank)}
    (hb : S_.BroadcastsInDim s (![] : Fin 0 → Fin s.rank)) (hr : s.ReducesTo axes S_) (h0 : 0 < S_.numel)
    (a : FVec Ideal s .f32)
    (e : Host.reduce IntOp.andi
          (cmpf .oge a (broadcastInDim s ![] hb (constant (F := Ideal) S_ .f32 0x00000000#32)))
          (constantI S_ 1 1#1) hr h0 i0 = 1#1) :
    ∀ i, (0 : EReal) ≤ a i := fun i =>
  nonneg_of_ge (a i) (Host.reduce_andi_eq_one _ _ hr h0 i0 e i (funext fun d => d.elim0))

/-! ## The precondition: a conjunction of fourteen such reductions -/

variable [Cert.Pre_finite_inputs.Facts]

theorem facts_of_pre (a0 : FVec Ideal S2x512x128 .f32) (a1 : FVec Ideal S2x512x512x16 .f32) (a2 : FVec Ideal S272x256 .f32) (a3 : FVec Ideal S256 .f32) (a4 : FVec Ideal S256 .f32) (a5 : FVec Ideal S256 .f32) (a6 : FVec Ideal S256 .f32) (a7 : FVec Ideal S256x256 .f32) (a8 : FVec Ideal S256 .f32) (a9 : FVec Ideal S256 .f32) (a10 : FVec Ideal S256 .f32) (a11 : FVec Ideal S256 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal))
      ∧ (∀ i, (0 : EReal) ≤ a6 i) ∧ (∀ i, (0 : EReal) ≤ a11 i) := by
  have h0 := congrFun h i0
  dsimp only [Cert.Pre_finite_inputs.fn, fn_part1, fn_part2, fn_part3, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, g6⟩, g11⟩ := h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10, real_of_all _ _ _ a11 e11,
    nonneg_of_all _ _ _ a6 g6, nonneg_of_all _ _ _ a11 g11⟩

end Cert.PreDecode

end
-- ==== Proof.lean ====
/-
  A two-layer message-passing step over a dense graph (2 batches of 512 nodes, 128 features, 16 edge features, 256
  hidden channels): for every ordered pair of nodes the concatenated features go through a linear map, an affine
  normalisation and a positive part, a second linear map, a second normalisation and a hyperbolic tangent, and each
  node sums the 512 messages it receives.

  The reference normalises after each linear map. The kernel scales each linear map's columns by the normalisation's
  scale beforehand (on the host), adds one combined shift, splits the first product into the parts of the two nodes and of
  the edge, and sums over the second node in eight blocks of 64, carrying the partial sum in a scratch from point to point
  of a 2 × 4 × 8 grid. Over the extended reals the two agree where distributivity holds: where every input is a real number
  and each normalisation's scale is finite — which is what the precondition says (finite inputs; variances
  non-negative, so that the reciprocal square root of variance plus a positive floor is a positive real).

  The three frames: the word-level and the idealized kernel run to the end, fault nowhere and leave their arguments
  unchanged (the region launched with two windows on one array, the body run in its three control cases); the reference's
  frame is its run with the result dropped. The idealization rewrote nothing, so nothing is to be preserved. The
  equivalence: the kernel's result array is the specification's kernel-side function of the arguments, the reference's its
  reference-side function, and the two functions agree under the precondition.
-/
import proofs.«400706_j54133767798955_3_alg».proof.Defs
import proofs.«400706_j54133767798955_3_alg».proof.Proof.Gen.Kernel
import proofs.«400706_j54133767798955_3_alg».proof.Proof.Gen.KernelIdeal
import proofs.«400706_j54133767798955_3_alg».proof.Proof.Gen.ReferenceIdeal
import proofs.«400706_j54133767798955_3_alg».proof.Proof.Gen.Pre_finite_inputs
import proofs.«400706_j54133767798955_3_alg».proof.Proof.K.Launch
import proofs.«400706_j54133767798955_3_alg».proof.Proof.KI.Final
import proofs.«400706_j54133767798955_3_alg».proof.Proof.RefRead
import proofs.«400706_j54133767798955_3_alg».proof.Proof.Algebra
import proofs.«400706_j54133767798955_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Hand.frame (F := Bits) m ρ

/-- The idealized kernel's frame. -/
theorem frame_ki : Cert.frame_KernelIdeal := fun m ρ _ => Cert.KernelIdeal.Hand.frame (F := Ideal) m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- Both programs end with the same result: the kernel's array is the kernel-side function of the arguments, the
    reference's the reference-side function of arguments that agree, and the two functions agree where every input is a
    real number and both variance vectors are non-negative. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Hand.run_GK m ρ, ?_⟩
  refine (θ_run Cert.ReferenceIdeal.defs _ _).mono (fun _ h c => ⟨(h c).1.trans ?_, (h c).2⟩)
    (Cert.ReferenceIdeal.RefValue.run_GR m' ρ')
  obtain ⟨e0, e1, e2, e3, e4, e5, e6, e7, e8, e9, e10, e11⟩ := hagree c
  rw [e0, e1, e2, e3, e4, e5, e6, e7, e8, e9, e10, e11]
  obtain ⟨f0, f1, f2, f3, f4, f5, f6, f7, f8, f9, f10, f11, hv1, hv2⟩ := Cert.PreDecode.facts_of_pre _ _ _ _ _ _ _ _ _ _ _ _ (hpre c)
  exact (Cert.Spec.GK_eq_GR _ _ _ _ _ _ _ _ _ _ _ _ f0 f1 f2 f3 f4 f5 f6 f7 f8 f9 f10 f11 hv1 hv2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
